-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x640x640 : Shape := ⟨4, ![32, 1, 640, 640]⟩
abbrev S32x3x640x640 : Shape := ⟨4, ![32, 3, 640, 640]⟩
abbrev S_ : Shape := ⟨0, ![]⟩

class Facts : Prop where
  bcast_S_S32x1x640x640 : S_.BroadcastsInDim S32x1x640x640 (![] : Fin 0 → Fin S32x1x640x640.rank)
  reducesTo_S32x1x640x640_S_d0_1_2_3 : S32x1x640x640.ReducesTo [0, 1, 2, 3] S_
  h_S_ : 0 < S_.numel
  bcast_S_S32x3x640x640 : S_.BroadcastsInDim S32x3x640x640 (![] : Fin 0 → Fin S32x3x640x640.rank)
  reducesTo_S32x3x640x640_S_d0_1_2_3 : S32x3x640x640.ReducesTo [0, 1, 2, 3] S_

variable [Facts]

def fn_part1 {F : FTy → Type} [FloatOps F] (main_v13 : IVec S_ 1) (main_v16 : IVec S32x3x640x640 1) : IVec S_ 1 :=
  let main_c_5 : IVec S_ 1 := constantI S_ 1 1#1
  let main_v17 : IVec S_ 1 := (fun x v => Host.reduce IntOp.andi x v reducesTo_S32x3x640x640_S_d0_1_2_3 h_S_) main_v16 main_c_5
  let main_v18 : IVec S_ 1 := andi main_v13 main_v17
  main_v18

def fn {F : FTy → Type} [FloatOps F] (main_arg0 : FVec F S32x1x640x640 .f32) (main_arg1 : FVec F S32x1x640x640 .f32) (main_arg2 : FVec F S32x1x640x640 .f32) (main_arg3 : FVec F S32x3x640x640 .f32) : IVec S_ 1 :=
  let main_v0 : FVec F S32x1x640x640 .f32 := Host.absf main_arg0
  let main_cst : FVec F S_ .f32 := constant S_ .f32 0x7F800000#32
  let main_v1 : FVec F S32x1x640x640 .f32 := broadcastInDim S32x1x640x640 ![] bcast_S_S32x1x640x640 main_cst
  let main_v2 : IVec S32x1x640x640 1 := cmpf .olt main_v0 main_v1
  let main_c : IVec S_ 1 := constantI S_ 1 1#1
  let main_v3 : IVec S_ 1 := (fun x v => Host.reduce IntOp.andi x v reducesTo_S32x1x640x640_S_d0_1_2_3 h_S_) main_v2 main_c
  let main_v4 : FVec F S32x1x640x640 .f32 := Host.absf main_arg1
  let main_cst_0 : FVec F S_ .f32 := constant S_ .f32 0x7F800000#32
  let main_v5 : FVec F S32x1x640x640 .f32 := broadcastInDim S32x1x640x640 ![] bcast_S_S32x1x640x640 main_cst_0
  let main_v6 : IVec S32x1x640x640 1 := cmpf .olt main_v4 main_v5
  let main_c_1 : IVec S_ 1 := constantI S_ 1 1#1
  let main_v7 : IVec S_ 1 := (fun x v => Host.reduce IntOp.andi x v reducesTo_S32x1x640x640_S_d0_1_2_3 h_S_) main_v6 main_c_1
  let main_v8 : IVec S_ 1 := andi main_v3 main_v7
  let main_v9 : FVec F S32x1x640x640 .f32 := Host.absf main_arg2
  let main_cst_2 : FVec F S_ .f32 := constant S_ .f32 0x7F800000#32
  let main_v10 : FVec F S32x1x640x640 .f32 := broadcastInDim S32x1x640x640 ![] bcast_S_S32x1x640x640 main_cst_2
  let main_v11 : IVec S32x1x640x640 1 := cmpf .olt main_v9 main_v10
  let main_c_3 : IVec S_ 1 := constantI S_ 1 1#1
  let main_v12 : IVec S_ 1 := (fun x v => Host.reduce IntOp.andi x v reducesTo_S32x1x640x640_S_d0_1_2_3 h_S_) main_v11 main_c_3
  let main_v13 : IVec S_ 1 := andi main_v8 main_v12
  let main_v14 : FVec F S32x3x640x640 .f32 := Host.absf main_arg3
  let main_cst_4 : FVec F S_ .f32 := constant S_ .f32 0x7F800000#32
  let main_v15 : FVec F S32x3x640x640 .f32 := broadcastInDim S32x3x640x640 ![] bcast_S_S32x3x640x640 main_cst_4
  let main_v16 : IVec S32x3x640x640 1 := cmpf .olt main_v14 main_v15
  fn_part1 (F := F) main_v13 main_v16
-- ==== Kernel.lean ====
abbrev S32x1x640x640 : Shape := ⟨4, ![32, 1, 640, 640]⟩
abbrev S32x3x640x640 : Shape := ⟨4, ![32, 3, 640, 640]⟩
abbrev S_ : Shape := ⟨0, ![]⟩
abbrev S32x640x640 : Shape := ⟨3, ![32, 640, 640]⟩
abbrev S32x192x640 : Shape := ⟨3, ![32, 192, 640]⟩
abbrev S32x1x640 : Shape := ⟨3, ![32, 1, 640]⟩
abbrev S32x193x640 : Shape := ⟨3, ![32, 193, 640]⟩
abbrev S32x194x640 : Shape := ⟨3, ![32, 194, 640]⟩
abbrev S32x194x1 : Shape := ⟨3, ![32, 194, 1]⟩
abbrev S32x194x641 : Shape := ⟨3, ![32, 194, 641]⟩
abbrev S32x194x642 : Shape := ⟨3, ![32, 194, 642]⟩
abbrev S1 : Shape := ⟨1, ![1]⟩
abbrev S2x1x1 : Shape := ⟨3, ![2, 1, 1]⟩
abbrev S1x640x640 : Shape := ⟨3, ![1, 640, 640]⟩
abbrev S1x1x1 : Shape := ⟨3, ![1, 1, 1]⟩
abbrev S1x640 : Shape := ⟨2, ![1, 640]⟩
abbrev S1x640x1 : Shape := ⟨3, ![1, 640, 1]⟩
abbrev S1x1 : Shape := ⟨2, ![1, 1]⟩

abbrev nBuf : Space → Nat
  | .hbm => 115
  | .vmem => 16
  | .smem => 0
  | _ => 0

abbrev bufTy : (tb : Table) → Fin (tcTables nBuf tb) → BufTy
  | .hbm, ⟨0, _⟩ => ⟨S32x1x640x640, .f32⟩
  | .hbm, ⟨1, _⟩ => ⟨S32x1x640x640, .f32⟩
  | .hbm, ⟨2, _⟩ => ⟨S32x1x640x640, .f32⟩
  | .hbm, ⟨3, _⟩ => ⟨S32x3x640x640, .f32⟩
  | .hbm, ⟨4, _⟩ => ⟨S_, .f32⟩
  | .hbm, ⟨5, _⟩ => ⟨S32x3x640x640, .f32⟩
  | .hbm, ⟨6, _⟩ => ⟨S32x3x640x640, .f32⟩
  | .hbm, ⟨7, _⟩ => ⟨S32x3x640x640, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x3x640x640, .f32⟩
  | .hbm, ⟨12, _⟩ => ⟨S32x3x640x640, .f32⟩
  | .hbm, ⟨13, _⟩ => ⟨S_, .f32⟩
  | .hbm, ⟨14, _⟩ => ⟨S32x3x640x640, .f32⟩
  | .hbm, ⟨15, _⟩ => ⟨S32x3x640x640, .f32⟩
  | .hbm, ⟨16, _⟩ => ⟨S32x1x640x640, .f32⟩
  | .hbm, ⟨17, _⟩ => ⟨S32x640x640, .f32⟩
  | .hbm, ⟨18, _⟩ => ⟨S32x1x640x640, .f32⟩
  | .hbm, ⟨19, _⟩ => ⟨S32x640x640, .f32⟩
  | .hbm, ⟨20, _⟩ => ⟨S32x1x640x640, .f32⟩
  | .hbm, ⟨21, _⟩ => ⟨S32x640x640, .f32⟩
  | .hbm, ⟨22, _⟩ => ⟨S_, .f32⟩
  | .hbm, ⟨23, _⟩ => ⟨S32x640x640, .f32⟩
  | .hbm, ⟨24, _⟩ => ⟨S32x640x640, .f32⟩
  | .hbm, ⟨25, _⟩ => ⟨S_, .f32⟩
  | .hbm, ⟨26, _⟩ => ⟨S32x640x640, .f32⟩
  | .hbm, ⟨27, _⟩ => ⟨S32x640x640, .f32⟩
  | .hbm, ⟨28, _⟩ => ⟨S32x640x640, .f32⟩
  | .hbm, ⟨29, _⟩ => ⟨S_, .f32⟩
  | .hbm, ⟨30, _⟩ => ⟨S32x640x640, .f32⟩
  | .hbm, ⟨31, _⟩ => ⟨S32x640x640, .f32⟩
  | .hbm, ⟨32, _⟩ => ⟨S32x640x640, .f32⟩
  | .hbm, ⟨33, _⟩ => ⟨S32x640x640, .f32⟩
  | .hbm, ⟨34, _⟩ => ⟨S32x192x640, .f32⟩
  | .hbm, ⟨35, _⟩ => ⟨S_, .f32⟩
  | .hbm, ⟨36, _⟩ => ⟨S32x192x640, .f32⟩
  | .hbm, ⟨37, _⟩ => ⟨S32x192x640, .i1⟩
  | .hbm, ⟨38, _⟩ => ⟨S_, .i32⟩
  | .hbm, ⟨39, _⟩ => ⟨S32x1x640, .f32⟩
  | .hbm, ⟨40, _⟩ => ⟨S32x1x640, .f32⟩
  | .hbm, ⟨41, _⟩ => ⟨S32x1x640, .f32⟩
  | .hbm, ⟨42, _⟩ => ⟨S32x193x640, .f32⟩
  | .hbm, ⟨43, _⟩ => ⟨S32x1x640, .f32⟩
  | .hbm, ⟨44, _⟩ => ⟨S32x1x640, .f32⟩
  | .hbm, ⟨45, _⟩ => ⟨S32x1x640, .f32⟩
  | .hbm, ⟨46, _⟩ => ⟨S32x194x640, .f32⟩
  | .hbm, ⟨47, _⟩ => ⟨S32x194x1, .f32⟩
  | .hbm, ⟨48, _⟩ => ⟨S32x194x1, .f32⟩
  | .hbm, ⟨49, _⟩ => ⟨S32x194x1, .f32⟩
  | .hbm, ⟨50, _⟩ => ⟨S32x194x641, .f32⟩
  | .hbm, ⟨51, _⟩ => ⟨S32x194x1, .f32⟩
  | .hbm, ⟨52, _⟩ => ⟨S32x194x1, .f32⟩
  | .hbm, ⟨53, _⟩ => ⟨S32x194x1, .f32⟩
  | .hbm, ⟨54, _⟩ => ⟨S32x194x642, .f32⟩
  | .hbm, ⟨55, _⟩ => ⟨S32x192x640, .f32⟩
  | .hbm, ⟨56, _⟩ => ⟨S32x192x640, .f32⟩
  | .hbm, ⟨57, _⟩ => ⟨S32x192x640, .f32⟩
  | .hbm, ⟨58, _⟩ => ⟨S32x192x640, .f32⟩
  | .hbm, ⟨59, _⟩ => ⟨S32x192x640, .f32⟩
  | .hbm, ⟨60, _⟩ => ⟨S32x192x640, .f32⟩
  | .hbm, ⟨61, _⟩ => ⟨S32x192x640, .f32⟩
  | .hbm, ⟨62, _⟩ => ⟨S_, .f32⟩
  | .hbm, ⟨63, _⟩ => ⟨S32x192x640, .f32⟩
  | .hbm, ⟨64, _⟩ => ⟨S32x192x640, .f32⟩
  | .hbm, ⟨65, _⟩ => ⟨S32x192x640, .f32⟩
  | .hbm, ⟨66, _⟩ => ⟨S32x192x640, .f32⟩
  | .hbm, ⟨67, _⟩ => ⟨S_, .f32⟩
  | .hbm, ⟨68, _⟩ => ⟨S32x192x640, .f32⟩
  | .hbm, ⟨69, _⟩ => ⟨S32x192x640, .i1⟩
  | .hbm, ⟨70, _⟩ => ⟨S32x192x640, .i1⟩
  | .hbm, ⟨71, _⟩ => ⟨S32x192x640, .f32⟩
  | .hbm, ⟨72, _⟩ => ⟨S_, .f32⟩
  | .hbm, ⟨73, _⟩ => ⟨S_, .f32⟩
  | .hbm, ⟨74, _⟩ => ⟨S32x192x640, .f32⟩
  | .hbm, ⟨75, _⟩ => ⟨S_, .f32⟩
  | .hbm, ⟨76, _⟩ => ⟨S_, .f32⟩
  | .hbm, ⟨77, _⟩ => ⟨S32x192x640, .f32⟩
  | .hbm, ⟨78, _⟩ => ⟨S_, .f32⟩
  | .hbm, ⟨79, _⟩ => ⟨S_, .f32⟩
  | .hbm, ⟨80, _⟩ => ⟨S32x192x640, .f32⟩
  | .hbm, ⟨81, _⟩ => ⟨S_, .f32⟩
  | .hbm, ⟨82, _⟩ => ⟨S_, .f32⟩
  | .hbm, ⟨83, _⟩ => ⟨S32x192x640, .f32⟩
  | .hbm, ⟨84, _⟩ => ⟨S_, .f32⟩
  | .hbm, ⟨85, _⟩ => ⟨S32x640x640, .f32⟩
  | .hbm, ⟨86, _⟩ => ⟨S_, .i32⟩
  | .hbm, ⟨87, _⟩ => ⟨S1, .i32⟩
  | .hbm, ⟨88, _⟩ => ⟨S32x640x640, .f32⟩
  | .hbm, ⟨89, _⟩ => ⟨S32x640x640, .f32⟩
  | .hbm, ⟨90, _⟩ => ⟨S32x640x640, .f32⟩
  | .hbm, ⟨91, _⟩ => ⟨S32x640x640, .f32⟩
  | .hbm, ⟨92, _⟩ => ⟨S2x1x1, .f32⟩
  | .hbm, ⟨93, _⟩ => ⟨S2x1x1, .f32⟩
  | .hbm, ⟨94, _⟩ => ⟨S2x1x1, .f32⟩
  | .hbm, ⟨95, _⟩ => ⟨S2x1x1, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .i1⟩
  | .hbm, ⟨112, _⟩ => ⟨S_, .f32⟩
  | .hbm, ⟨113, _⟩ => ⟨S_, .f32⟩
  | .hbm, ⟨114, _⟩ => ⟨S_, .f32⟩
  | .local _ .vmem, ⟨0, _⟩ => ⟨S1x640x640, .f32⟩
  | .local _ .vmem, ⟨1, _⟩ => ⟨S1x640x640, .f32⟩
  | .local _ .vmem, ⟨2, _⟩ => ⟨S1x640x640, .f32⟩
  | .local _ .vmem, ⟨3, _⟩ => ⟨S1x640x640, .f32⟩
  | .local _ .vmem, ⟨4, _⟩ => ⟨S1x640x640, .f32⟩
  | .local _ .vmem, ⟨5, _⟩ => ⟨S1x640x640, .f32⟩
  | .local _ .vmem, ⟨6, _⟩ => ⟨S1x640x640, .f32⟩
  | .local _ .vmem, ⟨7, _⟩ => ⟨S1x640x640, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | _, _ => ⟨S32x1x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_c_13 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52_0 : Ref sig .tc := ⟨.hbm, 92, rfl⟩
abbrev main_v52_1 : Ref sig .tc := ⟨.hbm, 93, rfl⟩
abbrev main_v52_2 : Ref sig .tc := ⟨.hbm, 94, rfl⟩
abbrev main_v52_3 : Ref sig .tc := ⟨.hbm, 95, rfl⟩
abbrev main_cst_14 : Ref sig .tc := ⟨.hbm, 96, rfl⟩
abbrev main_v53 : Ref sig .tc := ⟨.hbm, 97, rfl⟩
abbrev main_cst_15 : Ref sig .tc := ⟨.hbm, 98, rfl⟩
abbrev main_v54 : Ref sig .tc := ⟨.hbm, 99, rfl⟩
abbrev main_cst_16 : Ref sig .tc := ⟨.hbm, 100, rfl⟩
abbrev main_v55 : Ref sig .tc := ⟨.hbm, 101, rfl⟩
abbrev main_cst_17 : Ref sig .tc := ⟨.hbm, 102, rfl⟩
abbrev main_v56 : Ref sig .tc := ⟨.hbm, 103, rfl⟩
abbrev main_cst_18 : Ref sig .tc := ⟨.hbm, 104, rfl⟩
abbrev main_v57 : Ref sig .tc := ⟨.hbm, 105, rfl⟩
abbrev main_v58 : Ref sig .tc := ⟨.hbm, 106, rfl⟩
abbrev main_cst_19 : Ref sig .tc := ⟨.hbm, 107, rfl⟩
abbrev main_v59 : Ref sig .tc := ⟨.hbm, 108, rfl⟩
abbrev main_v60 : Ref sig .tc := ⟨.hbm, 109, rfl⟩
abbrev main_cst_20 : Ref sig .tc := ⟨.hbm, 110, rfl⟩
abbrev main_v61 : Ref sig .tc := ⟨.hbm, 111, rfl⟩
abbrev main_cst_21 : Ref sig .tc := ⟨.hbm, 112, rfl⟩
abbrev main_v62 : Ref sig .tc := ⟨.hbm, 113, rfl⟩
abbrev main_v63 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S32x3x640x640 : S_.BroadcastsInDim S32x3x640x640 (![] : Fin 0 → Fin S32x3x640x640.rank)
  slices_S32x3x640x640_S32x1x640x640_0_0_0_0 : S32x3x640x640.Slices ![0, 0, 0, 0] S32x1x640x640
  shapeCasts_S32x1x640x640_S32x640x640 : S32x1x640x640.ShapeCasts S32x640x640
  slices_S32x3x640x640_S32x1x640x640_0_1_0_0 : S32x3x640x640.Slices ![0, 1, 0, 0] S32x1x640x640
  slices_S32x3x640x640_S32x1x640x640_0_2_0_0 : S32x3x640x640.Slices ![0, 2, 0, 0] S32x1x640x640
  bcast_S_S32x640x640 : S_.BroadcastsInDim S32x640x640 (![] : Fin 0 → Fin S32x640x640.rank)
  slices_S32x640x640_S32x192x640_0_448_0 : S32x640x640.Slices ![0, 448, 0] S32x192x640
  bcast_S_S32x192x640 : S_.BroadcastsInDim S32x192x640 (![] : Fin 0 → Fin S32x192x640.rank)
  slices_S32x192x640_S32x1x640_0_0_0 : S32x192x640.Slices ![0, 0, 0] S32x1x640
  slices_S32x192x640_S32x1x640_0_1_0 : S32x192x640.Slices ![0, 1, 0] S32x1x640
  concatenates_S32x1x640_S32x192x640_S32x193x640_d1 : Shape.Concatenates [S32x1x640, S32x192x640] S32x193x640 1
  slices_S32x193x640_S32x1x640_0_192_0 : S32x193x640.Slices ![0, 192, 0] S32x1x640
  slices_S32x193x640_S32x1x640_0_191_0 : S32x193x640.Slices ![0, 191, 0] S32x1x640
  concatenates_S32x193x640_S32x1x640_S32x194x640_d1 : Shape.Concatenates [S32x193x640, S32x1x640] S32x194x640 1
  slices_S32x194x640_S32x194x1_0_0_0 : S32x194x640.Slices ![0, 0, 0] S32x194x1
  slices_S32x194x640_S32x194x1_0_0_1 : S32x194x640.Slices ![0, 0, 1] S32x194x1
  concatenates_S32x194x1_S32x194x640_S32x194x641_d2 : Shape.Concatenates [S32x194x1, S32x194x640] S32x194x641 2
  slices_S32x194x641_S32x194x1_0_0_640 : S32x194x641.Slices ![0, 0, 640] S32x194x1
  slices_S32x194x641_S32x194x1_0_0_639 : S32x194x641.Slices ![0, 0, 639] S32x194x1
  concatenates_S32x194x641_S32x194x1_S32x194x642_d2 : Shape.Concatenates [S32x194x641, S32x194x1] S32x194x642 2
  slices_S32x194x642_S32x192x640_0_0_1 : S32x194x642.Slices ![0, 0, 1] S32x192x640
  slices_S32x194x642_S32x192x640_0_2_1 : S32x194x642.Slices ![0, 2, 1] S32x192x640
  slices_S32x194x642_S32x192x640_0_1_0 : S32x194x642.Slices ![0, 1, 0] S32x192x640
  slices_S32x194x642_S32x192x640_0_1_2 : S32x194x642.Slices ![0, 1, 2] S32x192x640
  bcast_S_S_ : S_.BroadcastsInDim S_ (![] : Fin 0 → Fin S_.rank)
  reduceWindows_S32x192x640_S32x192x640_w1s1p0_0_w3s1p1_1_w3s1p1_1 : S32x192x640.ReduceWindows (![1, 3, 3] : Fin 3 → Nat) ![1, 1, 1] ![0, 1, 1] ![0, 1, 1] S32x192x640
  h_S_ : 0 < S_.numel
  bcast_S_S1 : S_.BroadcastsInDim S1 (![] : Fin 0 → Fin S1.rank)
  inb_S1x1x1_S1x1x1_0_0_0 : ∀ a, (![0, 0, 0] : Fin 3 → Nat) a + S1x1x1.size a ≤ S1x1x1.size a
  h_S1x1x1 : 0 < S1x1x1.numel
  inb_S1x640x640_S1x640x640_0_0_0 : ∀ a, (![0, 0, 0] : Fin 3 → Nat) a + S1x640x640.size a ≤ S1x640x640.size a
  h_S1x640x640 : 0 < S1x640x640.numel
  shapeCasts_S1x640x640_S1x640x640 : S1x640x640.ShapeCasts S1x640x640
  shapeCasts_S1x1x1_S1x1x1 : S1x1x1.ShapeCasts S1x1x1
  reduces_S1x640x640_S1x640 : S1x640x640.Reduces [2] S1x640
  shapeCasts_S1x640_S1x640x1 : S1x640.ShapeCasts S1x640x1
  reduces_S1x640x1_S1x1 : S1x640x1.Reduces [1] S1x1
  shapeCasts_S1x1_S1x1x1 : S1x1.ShapeCasts S1x1x1
  reducesTo_S2x1x1_S_d0_1_2 : S2x1x1.ReducesTo [0, 1, 2] S_
  scatter_S32x640x640_S1_S32x192x640_012_n_1_0_wf : ScatterDims.WF S32x640x640 S1 S32x192x640 [0, 1, 2] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x640x640.size a ≤ S32x640x640.size a
  hwx0_0 : ∀ i : grid0.Coords, EltTy.bits .f32 = 32 ∨ (Rect.block (s := S32x640x640) S1x640x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x640x640.size a ≤ S32x640x640.size a
  hwx0_1 : ∀ i : grid0.Coords, EltTy.bits .f32 = 32 ∨ (Rect.block (s := S32x640x640) S1x640x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640x640.size a ≤ S32x640x640.size a
  hwx0_2 : ∀ i : grid0.Coords, EltTy.bits .f32 = 32 ∨ (Rect.block (s := S32x640x640) S1x640x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x640x640.size a ≤ S32x640x640.size a
  hwx0_3 : ∀ i : grid0.Coords, EltTy.bits .f32 = 32 ∨ (Rect.block (s := S32x640x640) S1x640x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)

variable [Facts₀]

def scatter_S32x640x640_S1_S32x192x640_012_n_1_0 : ScatterDims S32x640x640 S1 S32x192x640 where
  updateWindowDims := [0, 1, 2]
  insertedWindowDims := []
  scatterDimsToOperandDims := [1]
  indexVectorDim := 0
  wf := scatter_S32x640x640_S1_S32x192x640_012_n_1_0_wf

abbrev win0_0 : Pipeline.Window sig grid0 :=
  Pipeline.Window.ofSpec (Memref.whole main_v49) S1x640x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1x640x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x640x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x640x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v52_2) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v52_3) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1x640x640 : Shape := ⟨4, ![32, 1, 640, 640]⟩
abbrev S32x3x640x640 : Shape := ⟨4, ![32, 3, 640, 640]⟩
abbrev S_ : Shape := ⟨0, ![]⟩
abbrev S32x640x640 : Shape := ⟨3, ![32, 640, 640]⟩
abbrev S32x192x640 : Shape := ⟨3, ![32, 192, 640]⟩
abbrev S32x1x640 : Shape := ⟨3, ![32, 1, 640]⟩
abbrev S32x193x640 : Shape := ⟨3, ![32, 193, 640]⟩
abbrev S32x194x640 : Shape := ⟨3, ![32, 194, 640]⟩
abbrev S32x194x1 : Shape := ⟨3, ![32, 194, 1]⟩
abbrev S32x194x641 : Shape := ⟨3, ![32, 194, 641]⟩
abbrev S32x194x642 : Shape := ⟨3, ![32, 194, 642]⟩
abbrev S1 : Shape := ⟨1, ![1]⟩

abbrev nBuf : Space → Nat
  | .hbm => 122
  | .vmem => 0
  | .smem => 0
  | _ => 0

abbrev bufTy : (tb : Table) → Fin (tcTables nBuf tb) → BufTy
  | .hbm, ⟨0, _⟩ => ⟨S32x1x640x640, .f32⟩
  | .hbm, ⟨1, _⟩ => ⟨S32x1x640x640, .f32⟩
  | .hbm, ⟨2, _⟩ => ⟨S32x1x640x640, .f32⟩
  | .hbm, ⟨3, _⟩ => ⟨S32x3x640x640, .f32⟩
  | .hbm, ⟨4, _⟩ => ⟨S_, .f32⟩
  | .hbm, ⟨5, _⟩ => ⟨S32x3x640x640, .f32⟩
  | .hbm, ⟨6, _⟩ => ⟨S32x3x640x640, .f32⟩
  | .hbm, ⟨7, _⟩ => ⟨S32x3x640x640, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x3x640x640, .f32⟩
  | .hbm, ⟨12, _⟩ => ⟨S32x3x640x640, .f32⟩
  | .hbm, ⟨13, _⟩ => ⟨S_, .f32⟩
  | .hbm, ⟨14, _⟩ => ⟨S32x3x640x640, .f32⟩
  | .hbm, ⟨15, _⟩ => ⟨S32x3x640x640, .f32⟩
  | .hbm, ⟨16, _⟩ => ⟨S32x1x640x640, .f32⟩
  | .hbm, ⟨17, _⟩ => ⟨S32x640x640, .f32⟩
  | .hbm, ⟨18, _⟩ => ⟨S32x1x640x640, .f32⟩
  | .hbm, ⟨19, _⟩ => ⟨S32x640x640, .f32⟩
  | .hbm, ⟨20, _⟩ => ⟨S32x1x640x640, .f32⟩
  | .hbm, ⟨21, _⟩ => ⟨S32x640x640, .f32⟩
  | .hbm, ⟨22, _⟩ => ⟨S_, .f32⟩
  | .hbm, ⟨23, _⟩ => ⟨S32x640x640, .f32⟩
  | .hbm, ⟨24, _⟩ => ⟨S32x640x640, .f32⟩
  | .hbm, ⟨25, _⟩ => ⟨S_, .f32⟩
  | .hbm, ⟨26, _⟩ => ⟨S32x640x640, .f32⟩
  | .hbm, ⟨27, _⟩ => ⟨S32x640x640, .f32⟩
  | .hbm, ⟨28, _⟩ => ⟨S32x640x640, .f32⟩
  | .hbm, ⟨29, _⟩ => ⟨S_, .f32⟩
  | .hbm, ⟨30, _⟩ => ⟨S32x640x640, .f32⟩
  | .hbm, ⟨31, _⟩ => ⟨S32x640x640, .f32⟩
  | .hbm, ⟨32, _⟩ => ⟨S32x640x640, .f32⟩
  | .hbm, ⟨33, _⟩ => ⟨S32x640x640, .f32⟩
  | .hbm, ⟨34, _⟩ => ⟨S32x192x640, .f32⟩
  | .hbm, ⟨35, _⟩ => ⟨S_, .f32⟩
  | .hbm, ⟨36, _⟩ => ⟨S32x192x640, .f32⟩
  | .hbm, ⟨37, _⟩ => ⟨S32x192x640, .i1⟩
  | .hbm, ⟨38, _⟩ => ⟨S_, .i32⟩
  | .hbm, ⟨39, _⟩ => ⟨S32x1x640, .f32⟩
  | .hbm, ⟨40, _⟩ => ⟨S32x1x640, .f32⟩
  | .hbm, ⟨41, _⟩ => ⟨S32x1x640, .f32⟩
  | .hbm, ⟨42, _⟩ => ⟨S32x193x640, .f32⟩
  | .hbm, ⟨43, _⟩ => ⟨S32x1x640, .f32⟩
  | .hbm, ⟨44, _⟩ => ⟨S32x1x640, .f32⟩
  | .hbm, ⟨45, _⟩ => ⟨S32x1x640, .f32⟩
  | .hbm, ⟨46, _⟩ => ⟨S32x194x640, .f32⟩
  | .hbm, ⟨47, _⟩ => ⟨S32x194x1, .f32⟩
  | .hbm, ⟨48, _⟩ => ⟨S32x194x1, .f32⟩
  | .hbm, ⟨49, _⟩ => ⟨S32x194x1, .f32⟩
  | .hbm, ⟨50, _⟩ => ⟨S32x194x641, .f32⟩
  | .hbm, ⟨51, _⟩ => ⟨S32x194x1, .f32⟩
  | .hbm, ⟨52, _⟩ => ⟨S32x194x1, .f32⟩
  | .hbm, ⟨53, _⟩ => ⟨S32x194x1, .f32⟩
  | .hbm, ⟨54, _⟩ => ⟨S32x194x642, .f32⟩
  | .hbm, ⟨55, _⟩ => ⟨S32x192x640, .f32⟩
  | .hbm, ⟨56, _⟩ => ⟨S32x192x640, .f32⟩
  | .hbm, ⟨57, _⟩ => ⟨S32x192x640, .f32⟩
  | .hbm, ⟨58, _⟩ => ⟨S32x192x640, .f32⟩
  | .hbm, ⟨59, _⟩ => ⟨S32x192x640, .f32⟩
  | .hbm, ⟨60, _⟩ => ⟨S32x192x640, .f32⟩
  | .hbm, ⟨61, _⟩ => ⟨S32x192x640, .f32⟩
  | .hbm, ⟨62, _⟩ => ⟨S_, .f32⟩
  | .hbm, ⟨63, _⟩ => ⟨S32x192x640, .f32⟩
  | .hbm, ⟨64, _⟩ => ⟨S32x192x640, .f32⟩
  | .hbm, ⟨65, _⟩ => ⟨S32x192x640, .f32⟩
  | .hbm, ⟨66, _⟩ => ⟨S32x192x640, .f32⟩
  | .hbm, ⟨67, _⟩ => ⟨S_, .f32⟩
  | .hbm, ⟨68, _⟩ => ⟨S32x192x640, .f32⟩
  | .hbm, ⟨69, _⟩ => ⟨S32x192x640, .i1⟩
  | .hbm, ⟨70, _⟩ => ⟨S32x192x640, .i1⟩
  | .hbm, ⟨71, _⟩ => ⟨S32x192x640, .f32⟩
  | .hbm, ⟨72, _⟩ => ⟨S_, .f32⟩
  | .hbm, ⟨73, _⟩ => ⟨S_, .f32⟩
  | .hbm, ⟨74, _⟩ => ⟨S32x192x640, .f32⟩
  | .hbm, ⟨75, _⟩ => ⟨S_, .f32⟩
  | .hbm, ⟨76, _⟩ => ⟨S_, .f32⟩
  | .hbm, ⟨77, _⟩ => ⟨S32x192x640, .f32⟩
  | .hbm, ⟨78, _⟩ => ⟨S_, .f32⟩
  | .hbm, ⟨79, _⟩ => ⟨S_, .f32⟩
  | .hbm, ⟨80, _⟩ => ⟨S32x192x640, .f32⟩
  | .hbm, ⟨81, _⟩ => ⟨S_, .f32⟩
  | .hbm, ⟨82, _⟩ => ⟨S_, .f32⟩
  | .hbm, ⟨83, _⟩ => ⟨S32x192x640, .f32⟩
  | .hbm, ⟨84, _⟩ => ⟨S_, .f32⟩
  | .hbm, ⟨85, _⟩ => ⟨S32x640x640, .f32⟩
  | .hbm, ⟨86, _⟩ => ⟨S_, .i32⟩
  | .hbm, ⟨87, _⟩ => ⟨S1, .i32⟩
  | .hbm, ⟨88, _⟩ => ⟨S32x640x640, .f32⟩
  | .hbm, ⟨89, _⟩ => ⟨S32x1x640x640, .f32⟩
  | .hbm, ⟨90, _⟩ => ⟨S_, .f32⟩
  | .hbm, ⟨91, _⟩ => ⟨S32x1x640x640, .f32⟩
  | .hbm, ⟨92, _⟩ => ⟨S32x1x640x640, .f32⟩
  | .hbm, ⟨93, _⟩ => ⟨S32x1x640x640, .f32⟩
  | .hbm, ⟨94, _⟩ => ⟨S32x1x640x640, .f32⟩
  | .hbm, ⟨95, _⟩ => ⟨S32x1x640x640, .f32⟩
  | .hbm, ⟨96, _⟩ => ⟨S32x1x640x640, .f32⟩
  | .hbm, ⟨97, _⟩ => ⟨S32x1x640x640, .f32⟩
  | .hbm, ⟨98, _⟩ => ⟨S32x1x640x640, .f32⟩
  | .hbm, ⟨99, _⟩ => ⟨S32x1x640x640, .f32⟩
  | .hbm, ⟨100, _⟩ => ⟨S32x1x640x640, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S32x1x640x640, .f32⟩
  | .hbm, ⟨109, _⟩ => ⟨S_, .f32⟩
  | .hbm, ⟨110, _⟩ => ⟨S_, .f32⟩
  | .hbm, ⟨111, _⟩ => ⟨S32x1x640x640, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .i1⟩
  | .hbm, ⟨119, _⟩ => ⟨S_, .f32⟩
  | .hbm, ⟨120, _⟩ => ⟨S_, .f32⟩
  | .hbm, ⟨121, _⟩ => ⟨S_, .f32⟩
  | _, _ => ⟨S32x1x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_c_13 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_14 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_15 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_cst_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_18 : Ref sig .tc := ⟨.hbm, 109, rfl⟩
abbrev main_v65 : Ref sig .tc := ⟨.hbm, 110, rfl⟩
abbrev main_v66 : Ref sig .tc := ⟨.hbm, 111, rfl⟩
abbrev main_cst_19 : Ref sig .tc := ⟨.hbm, 112, rfl⟩
abbrev main_v67 : Ref sig .tc := ⟨.hbm, 113, rfl⟩
abbrev main_cst_20 : Ref sig .tc := ⟨.hbm, 114, rfl⟩
abbrev main_v68 : Ref sig .tc := ⟨.hbm, 115, rfl⟩
abbrev main_v69 : Ref sig .tc := ⟨.hbm, 116, rfl⟩
abbrev main_cst_21 : Ref sig .tc := ⟨.hbm, 117, rfl⟩
abbrev main_v70 : Ref sig .tc := ⟨.hbm, 118, rfl⟩
abbrev main_cst_22 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]

class Facts₀ : Prop where
  bcast_S_S32x3x640x640 : S_.BroadcastsInDim S32x3x640x640 (![] : Fin 0 → Fin S32x3x640x640.rank)
  slices_S32x3x640x640_S32x1x640x640_0_0_0_0 : S32x3x640x640.Slices ![0, 0, 0, 0] S32x1x640x640
  shapeCasts_S32x1x640x640_S32x640x640 : S32x1x640x640.ShapeCasts S32x640x640
  slices_S32x3x640x640_S32x1x640x640_0_1_0_0 : S32x3x640x640.Slices ![0, 1, 0, 0] S32x1x640x640
  slices_S32x3x640x640_S32x1x640x640_0_2_0_0 : S32x3x640x640.Slices ![0, 2, 0, 0] S32x1x640x640
  bcast_S_S32x640x640 : S_.BroadcastsInDim S32x640x640 (![] : Fin 0 → Fin S32x640x640.rank)
  slices_S32x640x640_S32x192x640_0_448_0 : S32x640x640.Slices ![0, 448, 0] S32x192x640
  bcast_S_S32x192x640 : S_.BroadcastsInDim S32x192x640 (![] : Fin 0 → Fin S32x192x640.rank)
  slices_S32x192x640_S32x1x640_0_0_0 : S32x192x640.Slices ![0, 0, 0] S32x1x640
  slices_S32x192x640_S32x1x640_0_1_0 : S32x192x640.Slices ![0, 1, 0] S32x1x640
  concatenates_S32x1x640_S32x192x640_S32x193x640_d1 : Shape.Concatenates [S32x1x640, S32x192x640] S32x193x640 1
  slices_S32x193x640_S32x1x640_0_192_0 : S32x193x640.Slices ![0, 192, 0] S32x1x640
  slices_S32x193x640_S32x1x640_0_191_0 : S32x193x640.Slices ![0, 191, 0] S32x1x640
  concatenates_S32x193x640_S32x1x640_S32x194x640_d1 : Shape.Concatenates [S32x193x640, S32x1x640] S32x194x640 1
  slices_S32x194x640_S32x194x1_0_0_0 : S32x194x640.Slices ![0, 0, 0] S32x194x1
  slices_S32x194x640_S32x194x1_0_0_1 : S32x194x640.Slices ![0, 0, 1] S32x194x1
  concatenates_S32x194x1_S32x194x640_S32x194x641_d2 : Shape.Concatenates [S32x194x1, S32x194x640] S32x194x641 2
  slices_S32x194x641_S32x194x1_0_0_640 : S32x194x641.Slices ![0, 0, 640] S32x194x1
  slices_S32x194x641_S32x194x1_0_0_639 : S32x194x641.Slices ![0, 0, 639] S32x194x1
  concatenates_S32x194x641_S32x194x1_S32x194x642_d2 : Shape.Concatenates [S32x194x641, S32x194x1] S32x194x642 2
  slices_S32x194x642_S32x192x640_0_0_1 : S32x194x642.Slices ![0, 0, 1] S32x192x640
  slices_S32x194x642_S32x192x640_0_2_1 : S32x194x642.Slices ![0, 2, 1] S32x192x640
  slices_S32x194x642_S32x192x640_0_1_0 : S32x194x642.Slices ![0, 1, 0] S32x192x640
  slices_S32x194x642_S32x192x640_0_1_2 : S32x194x642.Slices ![0, 1, 2] S32x192x640
  bcast_S_S_ : S_.BroadcastsInDim S_ (![] : Fin 0 → Fin S_.rank)
  reduceWindows_S32x192x640_S32x192x640_w1s1p0_0_w3s1p1_1_w3s1p1_1 : S32x192x640.ReduceWindows (![1, 3, 3] : Fin 3 → Nat) ![1, 1, 1] ![0, 1, 1] ![0, 1, 1] S32x192x640
  h_S_ : 0 < S_.numel
  bcast_S_S1 : S_.BroadcastsInDim S1 (![] : Fin 0 → Fin S1.rank)
  bcast_S32x640x640_S32x1x640x640_0_2_3 : S32x640x640.BroadcastsInDim S32x1x640x640 (![0, 2, 3] : Fin 3 → Fin S32x1x640x640.rank)
  bcast_S_S32x1x640x640 : S_.BroadcastsInDim S32x1x640x640 (![] : Fin 0 → Fin S32x1x640x640.rank)
  reducesTo_S32x1x640x640_S_d0_1_2_3 : S32x1x640x640.ReducesTo [0, 1, 2, 3] S_
  scatter_S32x640x640_S1_S32x192x640_012_n_1_0_wf : ScatterDims.WF S32x640x640 S1 S32x192x640 [0, 1, 2] [] [1] 0

variable [Facts₀]

def scatter_S32x640x640_S1_S32x192x640_012_n_1_0 : ScatterDims S32x640x640 S1 S32x192x640 where
  updateWindowDims := [0, 1, 2]
  insertedWindowDims := []
  scatterDimsToOperandDims := [1]
  indexVectorDim := 0
  wf := scatter_S32x640x640_S1_S32x192x640_012_n_1_0_wf

class Facts : Prop extends Facts₀ where

variable [Facts]
-- ==== Proof.KPieces.lean ====
/-
  What each control case of the kernel body leaves in the four output staging buffers, as the body's payload
  terms, for any float instance F.

  The payloads, as the generated skeleton defines them: k0_pay9 x0 x1 is the elementwise term
  max(x0, 0) - x0 * x1 + log1p(exp(0 - |x0|)); k0_pay8 x2 is x2; k0_pay10 x2 x3 is x2 * x3; k0_pay11 x0 x1 x2 x3 is
  k0_pay9 x0 x1 * k0_pay10 x2 x3; k0_pay4..k0_pay7 are the 1x1x1 block of +0.0; and k0_pay12, k0_pay1, k0_pay2,
  k0_pay3 each add to a 1x1x1 block the sum (over the last axis, then over the middle axis) of a 1x640x640 block:
  k0_pay12 x0 x1 x2 a = a + sum (k0_pay9 x0 x1 * x2), k0_pay1 v a = a + sum v, likewise k0_pay2 and k0_pay3.

  The body runs in two cases, told apart by whether the second grid coordinate is zero. Where it is not (case B)
  each output block is written by ONE store that covers the whole 1x1x1 block; its payload reads the input blocks
  x0..x3 whole and the block's own running contents xo4..xo7, so the block ends at the accumulating payload of
  those. Where it is (case A) each output block is first written with the +0.0 block and then by the same
  accumulating store, whose read of the block's own contents now reads that +0.0 block back; the later store covers
  the block, so the block ends at the accumulating payload over the +0.0 block.

  Every rectangle involved is the whole shape at offsets (0, 0, 0): a load through it is the contents, a
  covering store through it, last in the list, leaves its payload, and a load of what one such store left is
  that store's payload.
-/
import proofs.«158065_j53300544143793_1_alg».proof.Proof.Gen.KernelIdeal.Frame
import Idealize.ShloMosaic.Lib.Pipeline.Value
import Idealize.ShloMosaic.Lib.Tactic

-- the whole-block rectangles of the 640-long axes: structural recursion once per coordinate
set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

/-- The offsets (0, 0, 0) are the constant-zero offsets. -/
theorem hz : (![0, 0, 0] : Fin 3 → Nat) = fun _ => 0 := funext fun a => by fin_cases a <;> rfl

/-! ## Case B: one covering store per output, over the block's running contents -/

/-- Output 4 in case B: the running contents `xo4` plus the sum of `k0_pay9 x0 x1 * x2`. -/
theorem out_B_4 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (x0 x1 x2 x3 : Vec F S1x640x640 .f32) (xo4 xo5 xo6 xo7 : Vec F S1x1x1 .f32) :
    out0_B_4 c i arg2 harg2 arg3 harg3 arg4 harg4 arg5 harg5 arg6 harg6 arg7 harg7 arg8 harg8 arg9 harg9 hc0 x0 x1 x2 x3 xo4 xo5 xo6 xo7 = k0_pay12 x0 x1 x2 xo4 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S1x1x1) hz]
  simp only [View.readAt_eq_ld, harg2.read_unread, harg3.read_unread, harg4.read_unread, harg6.read_unread, View.ld_unit_zero (S := S1x640x640) hz, View.ld_unit_zero (S := S1x1x1) hz]

/-- Output 5 in case B: the running contents `xo5` plus the sum of `x2`. -/
theorem out_B_5 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (x0 x1 x2 x3 : Vec F S1x640x640 .f32) (xo4 xo5 xo6 xo7 : Vec F S1x1x1 .f32) :
    out0_B_5 c i arg2 harg2 arg3 harg3 arg4 harg4 arg5 harg5 arg6 harg6 arg7 harg7 arg8 harg8 arg9 harg9 hc0 x0 x1 x2 x3 xo4 xo5 xo6 xo7 = k0_pay1 (k0_pay8 x2) xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S1x1x1) hz]
  simp only [View.readAt_eq_ld, harg4.read_unread, harg7.read_unread, View.ld_unit_zero (S := S1x640x640) hz, View.ld_unit_zero (S := S1x1x1) hz]

/-- Output 6 in case B: the running contents `xo6` plus the sum of `k0_pay9 x0 x1 * (x2 * x3)`. -/
theorem out_B_6 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (x0 x1 x2 x3 : Vec F S1x640x640 .f32) (xo4 xo5 xo6 xo7 : Vec F S1x1x1 .f32) :
    out0_B_6 c i arg2 harg2 arg3 harg3 arg4 harg4 arg5 harg5 arg6 harg6 arg7 harg7 arg8 harg8 arg9 harg9 hc0 x0 x1 x2 x3 xo4 xo5 xo6 xo7 = k0_pay2 (k0_pay11 x0 x1 x2 x3) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S1x1x1) hz]
  simp only [View.readAt_eq_ld, harg2.read_unread, harg3.read_unread, harg4.read_unread, harg5.read_unread, harg8.read_unread, View.ld_unit_zero (S := S1x640x640) hz, View.ld_unit_zero (S := S1x1x1) hz]

/-- Output 7 in case B: the running contents `xo7` plus the sum of `x2 * x3`. -/
theorem out_B_7 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (x0 x1 x2 x3 : Vec F S1x640x640 .f32) (xo4 xo5 xo6 xo7 : Vec F S1x1x1 .f32) :
    out0_B_7 c i arg2 harg2 arg3 harg3 arg4 harg4 arg5 harg5 arg6 harg6 arg7 harg7 arg8 harg8 arg9 harg9 hc0 x0 x1 x2 x3 xo4 xo5 xo6 xo7 = k0_pay3 (k0_pay10 x2 x3) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S1x1x1) hz]
  simp only [View.readAt_eq_ld, harg4.read_unread, harg5.read_unread, harg9.read_unread, View.ld_unit_zero (S := S1x640x640) hz, View.ld_unit_zero (S := S1x1x1) hz]

/-! ## Case A: a reset to the +0.0 block, then the covering store that reads the reset back -/

/-- Output 4 in case A: the +0.0 block the reset stored, read back by the update, plus the sum of `k0_pay9 x0 x1 * x2`. -/
theorem out_A_4 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (x0 x1 x2 x3 : Vec F S1x640x640 .f32) :
    out0_A_4 c i arg2 harg2 arg3 harg3 arg4 harg4 arg5 harg5 arg6 harg6 arg7 harg7 arg8 harg8 arg9 harg9 hc0 x0 x1 x2 x3 = k0_pay12 x0 x1 x2 (k0_pay4 (F := F)) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1x1) hz]
  simp only [View.readAt_eq_ld, harg2.read_unread, harg3.read_unread, harg4.read_unread, View.ld_unit_zero (S := S1x640x640) hz, View.readCov_unit_zero (S := S1x1x1) _ hz]

/-- Output 5 in case A: the +0.0 block read back plus the sum of `x2`. -/
theorem out_A_5 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (x0 x1 x2 x3 : Vec F S1x640x640 .f32) :
    out0_A_5 c i arg2 harg2 arg3 harg3 arg4 harg4 arg5 harg5 arg6 harg6 arg7 harg7 arg8 harg8 arg9 harg9 hc0 x0 x1 x2 x3 = k0_pay1 (k0_pay8 x2) (k0_pay5 (F := F)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1x1) hz]
  simp only [View.readAt_eq_ld, harg4.read_unread, View.ld_unit_zero (S := S1x640x640) hz, View.readCov_unit_zero (S := S1x1x1) _ hz]

/-- Output 6 in case A: the +0.0 block read back plus the sum of `k0_pay9 x0 x1 * (x2 * x3)`. -/
theorem out_A_6 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (x0 x1 x2 x3 : Vec F S1x640x640 .f32) :
    out0_A_6 c i arg2 harg2 arg3 harg3 arg4 harg4 arg5 harg5 arg6 harg6 arg7 harg7 arg8 harg8 arg9 harg9 hc0 x0 x1 x2 x3 = k0_pay2 (k0_pay11 x0 x1 x2 x3) (k0_pay6 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1x1) hz]
  simp only [View.readAt_eq_ld, harg2.read_unread, harg3.read_unread, harg4.read_unread, harg5.read_unread, View.ld_unit_zero (S := S1x640x640) hz, View.readCov_unit_zero (S := S1x1x1) _ hz]

/-- Output 7 in case A: the +0.0 block read back plus the sum of `x2 * x3`. -/
theorem out_A_7 (c : Dev nD) (i : grid0.Coords) (arg2 : Memref sig .tc .vmem S1x640x640 .f32) (harg2 : arg2.IsWhole) (arg3 : Memref sig .tc .vmem S1x640x640 .f32) (harg3 : arg3.IsWhole) (arg4 : Memref sig .tc .vmem S1x640x640 .f32) (harg4 : arg4.IsWhole) (arg5 : Memref sig .tc .vmem S1x640x640 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (x0 x1 x2 x3 : Vec F S1x640x640 .f32) :
    out0_A_7 c i arg2 harg2 arg3 harg3 arg4 harg4 arg5 harg5 arg6 harg6 arg7 harg7 arg8 harg8 arg9 harg9 hc0 x0 x1 x2 x3 = k0_pay3 (k0_pay10 x2 x3) (k0_pay7 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1x1) hz]
  simp only [View.readAt_eq_ld, harg4.read_unread, harg5.read_unread, View.ld_unit_zero (S := S1x640x640) hz, View.readCov_unit_zero (S := S1x1x1) _ hz]

end Cert.KernelIdeal.Pieces

end
-- ==== Proof.Sums.lean ====
/-
  Sums of a stack of thirty-two 640×640 images over the extended reals, arranged the two ways the two programs
  arrange them.

  One program sums a whole [32, 1, 640, 640] array at once. The other visits the images one at a time, in two groups of
  sixteen: of each image it sums every row along its lanes, then sums the 640 row sums, and adds the result to a running
  total that is set to zero at the first image of a group; the two group totals are added at the end. Addition on the
  extended reals is commutative and associative, so both are the same number: the sum over the images of the sum of an
  image's entries. Nothing here needs the entries to be finite.
-/
import Idealize.ShloMosaic.PureOps.Ideal.Laws
import Idealize.ShloMosaic.Lib.ValueIdx
import Idealize.ShloMosaic.Lib.Pipeline.Value

noncomputable section

namespace Cert.MaskedSums

open Idealize.ShloMosaic Idealize.ShloMosaic.ValueIdx

/-! ## One image: lane sums of the rows, then the sum of the row sums -/

abbrev Tile : Shape := ⟨3, ![1, 640, 640]⟩
abbrev Rows : Shape := ⟨2, ![1, 640]⟩
abbrev RowsCol : Shape := ⟨3, ![1, 640, 1]⟩
abbrev One2 : Shape := ⟨2, ![1, 1]⟩
abbrev One3 : Shape := ⟨3, ![1, 1, 1]⟩

/-- The sum of the entries of one image held as a [1, 640, 640] tile. -/
def tileSum (v : Tile.Idx → EReal) : EReal := ∑ r : Fin 640, ∑ c : Fin 640, v (ix3 0 r c)

/-- Summing a tile along its lanes, laying the 640 row sums out as a column, summing that column and viewing the one
    number left as a [1, 1, 1] block gives, at the block's one index, the sum of the tile's entries. -/
theorem rows_then_all (v : FVec Ideal Tile .f32) (h1 : Tile.Reduces [2] Rows) (hφ : FKind.Formats .f32)
    (hacc : (0x00000000#32 : BitVec 32) = FKind.add.neutral .f32 hφ)
    (h2 : Rows.ShapeCasts RowsCol) (h3 : RowsCol.Reduces [1] One2) (h4 : One2.ShapeCasts One3) (j : One3.Idx) :
    shapeCast One3 (multiReduction .add [1] One2 (shapeCast RowsCol (multiReduction .add [2] Rows v 0x00000000#32 h1 hφ hacc) h2)
      0x00000000#32 h3 hφ hacc) h4 j = tileSum v := by
  -- the last view: the block's one index is the [1, 1] array's one index
  refine (shapeCast_apply (s := One2) (t := One3) _ h4 j (ix2 0 0) ?_).trans ?_
  · have e0 : (j 0).val = 0 := by have : (j 0).val < 1 := (j 0).isLt; omega
    have e1 : (j 1).val = 0 := by have : (j 1).val < 1 := (j 1).isLt; omega
    have e2 : (j 2).val = 0 := by have : (j 2).val < 1 := (j 2).isLt; omega
    rw [Shape.rowMajor_val_two, Shape.rowMajor_val_three, e0, e1, e2]
    rfl
  -- the sum of the column of row sums
  refine (Ideal.multiReduction_add_single _ _ h3 hφ hacc (ix2 0 0)).trans ?_
  show ∑ r : Fin 640, _ = ∑ r : Fin 640, _
  refine Finset.sum_congr rfl fun r _ => ?_
  -- the column's entry r is row r's sum
  refine (shapeCast_apply (s := Rows) (t := RowsCol) _ h2 _ (ix2 0 r) ?_).trans ?_
  · rw [Shape.rowMajor_val_two, Shape.rowMajor_val_three]
    show 0 * 640 + r.val = (0 * 640 + r.val) * 1 + 0
    omega
  -- row r's lane sum
  refine (Ideal.multiReduction_add_single _ _ h1 hφ hacc (ix2 0 r)).trans ?_
  show ∑ c : Fin 640, _ = ∑ c : Fin 640, _
  refine Finset.sum_congr rfl fun c _ => ?_
  refine congrArg v ?_
  funext a
  match a with
  | ⟨0, _⟩ => exact Fin.ext rfl
  | ⟨1, _⟩ => exact Fin.ext rfl
  | ⟨2, _⟩ => exact Fin.ext rfl

/-! ## The whole stack at once -/

abbrev Stack3 : Shape := ⟨3, ![32, 640, 640]⟩
abbrev Stack4 : Shape := ⟨4, ![32, 1, 640, 640]⟩

/-- The sum of the entries of image `n` of a [32, 640, 640] stack. -/
def imageSum (f : Stack3.Idx → EReal) (n : Fin 32) : EReal := ∑ r : Fin 640, ∑ c : Fin 640, f (ix3 n r c)

/-- An index of the [32, 1, 640, 640] array is an image, a row and a lane: its second coordinate is always zero. -/
def stackEquiv : Stack4.Idx ≃ Fin 32 × Fin 640 × Fin 640 where
  toFun i := (i 0, i 2, i 3)
  invFun p := ix4 p.1 0 p.2.1 p.2.2
  left_inv i := by
    funext a
    match a with
    | ⟨0, _⟩ => rfl
    | ⟨1, _⟩ => exact Fin.ext (by have : (i 1).val < 1 := (i 1).isLt; show 0 = (i 1).val; omega)
    | ⟨2, _⟩ => rfl
    | ⟨3, _⟩ => rfl
  right_inv p := rfl

/-- The sum over every index of the [32, 1, 640, 640] array, image by image. -/
theorem sum_stack4 (f : Stack3.Idx → EReal) :
    ∑ i : Stack4.Idx, f (ix3 (i 0) (i 2) (i 3)) = ∑ n : Fin 32, imageSum f n := by
  refine (stackEquiv.symm.sum_comp fun i : Stack4.Idx => f (ix3 (i 0) (i 2) (i 3))).symm.trans ?_
  rw [Fintype.sum_prod_type]
  refine Finset.sum_congr rfl fun n _ => ?_
  rw [Fintype.sum_prod_type]
  rfl

/-! ## The two group totals -/

abbrev Groups : Shape := ⟨3, ![2, 1, 1]⟩

/-- A [2, 1, 1] array has two entries. -/
def groupsEquiv : Groups.Idx ≃ Fin 2 where
  toFun i := i 0
  invFun g := ix3 g 0 0
  left_inv i := by
    funext a
    match a with
    | ⟨0, _⟩ => rfl
    | ⟨1, _⟩ => exact Fin.ext (by have : (i 1).val < 1 := (i 1).isLt; show 0 = (i 1).val; omega)
    | ⟨2, _⟩ => exact Fin.ext (by have : (i 2).val < 1 := (i 2).isLt; show 0 = (i 2).val; omega)
  right_inv g := rfl

theorem sum_groups (O : Groups.Idx → EReal) : ∑ i : Groups.Idx, O i = O (ix3 0 0 0) + O (ix3 1 0 0) := by
  refine (groupsEquiv.symm.sum_comp O).symm.trans ?_
  rw [Fin.sum_univ_two]
  rfl

/-! ## The running total over the grid's points

Point `n` of the 32 handles image `n`; the total is reset at the points divisible by sixteen. After point `n` it is the
sum of the images from the last reset up to `n`. -/

/-- The running total after point `n`, over per-image sums `s`. -/
def running (s : ℕ → EReal) (n : ℕ) : EReal := ∑ k ∈ Finset.range (n % 16 + 1), s (n - n % 16 + k)

theorem running_reset (s : ℕ → EReal) (n : ℕ) (h : n % 16 = 0) : running s n = s n := by
  unfold running
  rw [h]
  simp

theorem running_step (s : ℕ → EReal) (n : ℕ) (h : ¬n % 16 = 0) : running s n = running s (n - 1) + s n := by
  unfold running
  have h1 : (n - 1) % 16 + 1 = n % 16 := by omega
  have h2 : n - 1 - (n - 1) % 16 = n - n % 16 := by omega
  have h3 : n - n % 16 + n % 16 = n := by omega
  rw [h1, h2, Finset.sum_range_succ, h3]

theorem running_last (s : ℕ → EReal) (g : ℕ) : running s (16 * g + 15) = ∑ k ∈ Finset.range 16, s (16 * g + k) := by
  unfold running
  have h1 : (16 * g + 15) % 16 = 15 := by omega
  have h2 : 16 * g + 15 - 15 = 16 * g := by omega
  rw [h1, h2]

/-- The two group totals together are the sum over all thirty-two points. -/
theorem two_groups (s : ℕ → EReal) :
    running s (16 * 0 + 15) + running s (16 * 1 + 15) = ∑ n ∈ Finset.range 32, s n := by
  rw [running_last, running_last, show (32 : ℕ) = 16 + 16 from rfl, Finset.sum_range_add]
  simp

/-- Per-image sums indexed by the natural numbers (zero past the last image). -/
def perImage (f : Stack3.Idx → EReal) (n : ℕ) : EReal := if h : n < 32 then imageSum f ⟨n, h⟩ else 0

theorem perImage_of_lt (f : Stack3.Idx → EReal) (n : ℕ) (h : n < 32) : perImage f n = imageSum f ⟨n, h⟩ := dif_pos h

/-- The two group totals are the sum over the images of each image's sum. -/
theorem groups_eq_images (f : Stack3.Idx → EReal) :
    running (perImage f) (16 * 0 + 15) + running (perImage f) (16 * 1 + 15) = ∑ n : Fin 32, imageSum f n := by
  rw [two_groups, Finset.sum_range]
  refine Finset.sum_congr rfl fun n _ => ?_
  exact perImage_of_lt f n.val n.isLt

/-! ## The loss of one entry -/

/-- The binary cross-entropy of a logit `p` against a target `g`, in the numerically stable form both programs use:
    max(p, 0) − p·g + log(1 + e^(−|p|)), with |p| = max(p, −p). -/
def bce (p g : EReal) : EReal := (max p 0 - p * g) + Ideal.log1p (Ideal.exp (-(max p (-p))))

/-- One program negates |p| by subtracting it from zero. -/
theorem bce_zero_sub (p g : EReal) : (max p 0 - p * g) + Ideal.log1p (Ideal.exp (0 - max p (-p))) = bce p g := by
  unfold bce
  rw [zero_sub]

/-! ## The unit axis: dropping it and putting it back -/

/-- A [32, 1, 640, 640] array seen as a [32, 640, 640] stack. -/
def squeeze (A : Stack4.Idx → EReal) : Stack3.Idx → EReal := fun i => A (ix4 (i 0) 0 (i 1) (i 2))

/-- The stack at an index's image, row and lane is the array at the index. -/
theorem squeeze_at (A : Stack4.Idx → EReal) (i : Stack4.Idx) : squeeze A (ix3 (i 0) (i 2) (i 3)) = A i := by
  unfold squeeze
  refine congrArg A ?_
  funext a
  match a with
  | ⟨0, _⟩ => rfl
  | ⟨1, _⟩ => exact Fin.ext (by have : (i 1).val < 1 := (i 1).isLt; show 0 = (i 1).val; omega)
  | ⟨2, _⟩ => rfl
  | ⟨3, _⟩ => rfl

/-- Reshaping the array to rank three is that view: both read the same row-major position. -/
theorem reshape_eq_squeeze (A : Stack4.Idx → EReal) (h : Stack4.ShapeCasts Stack3) : shapeCast Stack3 A h = squeeze A := by
  funext i
  refine shapeCast_apply (s := Stack4) (t := Stack3) A h i (ix4 (i 0) 0 (i 1) (i 2)) ?_
  rw [Shape.rowMajor_val_four, Shape.rowMajor_val_three]
  show (((i 0).val * 1 + 0) * 640 + (i 1).val) * 640 + (i 2).val = ((i 0).val * 640 + (i 1).val) * 640 + (i 2).val
  omega

/-- A stack laid back into a [32, 1, 640, 640] array reads, at an index, the stack at its image, row and lane. -/
theorem unsqueeze_at (S : Stack3.Idx → EReal) (dims : Fin 3 → Fin 4) (hd : dims = ![0, 2, 3]) (h : Stack3.BroadcastsInDim Stack4 dims)
    (i : Stack4.Idx) : broadcastInDim Stack4 dims h S i = S (ix3 (i 0) (i 2) (i 3)) := by
  subst hd
  refine broadcastInDim_apply (s := Stack3) (t := Stack4) _ h S i (ix3 (i 0) (i 2) (i 3)) ?_
  intro a
  match a with
  | ⟨0, _⟩ => exact (if_neg (show ¬((32 : ℕ) = 1) by decide)).symm
  | ⟨1, _⟩ => exact (if_neg (show ¬((640 : ℕ) = 1) by decide)).symm
  | ⟨2, _⟩ => exact (if_neg (show ¬((640 : ℕ) = 1) by decide)).symm

/-! ## The host's sum over every axis, and the final formula -/

abbrev Scalar0 : Shape := ⟨0, ![]⟩

/-- The host's sum of a whole array from the zero word is the plain sum of its entries. -/
theorem hostSum_total {s : Shape} {axes : List (Fin s.rank)} (x : FVec Ideal s .f32) (h : s.ReducesTo axes Scalar0)
    (hu : 0 < Scalar0.numel) (j : Scalar0.Idx) :
    Host.reduceAdd (F := Ideal) x (constant Scalar0 .f32 0x00000000#32) h hu j = ∑ i : s.Idx, x i := by
  show Ideal.hostReduceAdd h x (Ideal.ofBits .f32 0x00000000#32) j = _
  rw [Ideal.hostReduceAdd_total h (fun b => b.elim0) x _ j, Ideal.ofBits_zero_f32, zero_add]

/-- What both programs do with the four sums: the loss restricted to the marked region, Σ bce·mask·sub / max(Σ mask·sub, ε),
    when that region has positive weight, and otherwise the plain masked mean Σ bce·mask / max(Σ mask, ε). -/
def lossOf {F : FTy → Type} [FloatOps F] (sBm sM sBc sC : FVec F Scalar0 .f32) : FVec F Scalar0 .f32 :=
  select (cmpf .ogt sC (constant Scalar0 .f32 0x00000000#32))
    (mulf (constant Scalar0 .f32 0x3F800000#32) (Host.divf sBc (maximumf sC (constant Scalar0 .f32 0x358637BD#32))))
    (Host.divf sBm (maximumf sM (constant Scalar0 .f32 0x358637BD#32)))

/-- The sum over the thirty-two images of each image's sum, as a scalar array. -/
def stackTotal (f : Stack3.Idx → EReal) : FVec Ideal Scalar0 .f32 := fun _ => ∑ n : Fin 32, imageSum f n

/-- The four per-entry quantities, over the logits `P`, the targets `G`, the mask `M` and the marked region `S`. -/
def entryBm (P G M : Stack3.Idx → EReal) : Stack3.Idx → EReal := fun i => bce (P i) (G i) * M i
def entryBc (P G M S : Stack3.Idx → EReal) : Stack3.Idx → EReal := fun i => bce (P i) (G i) * (M i * S i)
def entryC (M S : Stack3.Idx → EReal) : Stack3.Idx → EReal := fun i => M i * S i

/-- The value both programs end at. -/
def theLoss (A0 A1 A2 : Stack4.Idx → EReal) (S : Stack3.Idx → EReal) : FVec Ideal Scalar0 .f32 :=
  lossOf (stackTotal (entryBm (squeeze A0) (squeeze A1) (squeeze A2))) (stackTotal (squeeze A2))
    (stackTotal (entryBc (squeeze A0) (squeeze A1) (squeeze A2) S)) (stackTotal (entryC (squeeze A2) S))

end Cert.MaskedSums

end
-- ==== Proof.KPayloads.lean ====
/-
  The kernel body's arithmetic read at the ideal instance.

  At a grid point the body holds four 640×640 tiles: the logits p, the targets g, the mask m and the marked region s of
  one image. From them it forms, entry by entry, the loss max(p, 0) − p·g + log(1 + e^(0 − |p|)), the products
  loss·m, m·s and loss·(m·s), and adds to each of its four one-entry output blocks the sum of one 640×640 tile:
  loss·m, m, loss·(m·s) and m·s. Over the extended reals each of these updates is
      block ↦ block + Σ_r Σ_c tile(r, c),
  the tile's lane sums summed again, and 0 − |p| is −|p|.
-/
import proofs.«158065_j53300544143793_1_alg».proof.Proof.Gen.KernelIdeal.Skeleton
import proofs.«158065_j53300544143793_1_alg».proof.Proof.Sums
import Idealize.ShloMosaic.Lib.Pipeline.Value

noncomputable section

namespace Cert.KernelIdeal.Payloads

open Idealize.ShloMosaic Idealize.ShloMosaic.TcCoe Idealize.ShloMosaic.ValueIdx Idealize.SL.Sem
open Cert.KernelIdeal Cert.KernelIdeal.Gen Cert.MaskedSums

/-! ## The entrywise terms -/

/-- The loss of an entry. -/
theorem loss_apply (p g : FVec Ideal S1x640x640 .f32) (i : S1x640x640.Idx) :
    k0_pay9 (F := Ideal) p g i = bce (p i) (g i) := by
  simp only [k0_pay9, shapeCast_self]
  show (max (p i) (Ideal.ofBits .f32 0x00000000#32) - p i * g i)
      + Ideal.log1p (Ideal.exp (Ideal.ofBits .f32 0x00000000#32 - max (p i) (-(p i)))) = _
  rw [Ideal.ofBits_zero_f32, bce_zero_sub]

/-- The mask tile passes through unchanged. -/
theorem mask_eq (w : FVec Ideal S1x640x640 .f32) : k0_pay8 (F := Ideal) w = w := by
  simp only [k0_pay8, shapeCast_self]

/-- The mask times the marked region. -/
theorem region_apply (w s : FVec Ideal S1x640x640 .f32) (i : S1x640x640.Idx) :
    k0_pay10 (F := Ideal) w s i = w i * s i := by
  simp only [k0_pay10, k0_pay8, shapeCast_self]
  rfl

/-- The loss times the masked region. -/
theorem lossRegion_apply (p g w s : FVec Ideal S1x640x640 .f32) (i : S1x640x640.Idx) :
    k0_pay11 (F := Ideal) p g w s i = bce (p i) (g i) * (w i * s i) := by
  simp only [k0_pay11]
  show k0_pay9 (F := Ideal) p g i * k0_pay10 (F := Ideal) w s i = _
  rw [loss_apply, region_apply]

/-! ## The four updates -/

/-- Adding a tile's sum to a one-entry block: the block's two views are the identity and the tile's sum is
    `tileSum` (lane sums, then their sum). -/
theorem add_tileSum (v : FVec Ideal S1x640x640 .f32) (acc : FVec Ideal S1x1x1 .f32)
    (h0 : S1x1x1.ShapeCasts S1x1x1) (h1 : S1x640x640.Reduces [2] S1x640) (hφ : FKind.Formats .f32)
    (hacc : (0x00000000#32 : BitVec 32) = FKind.add.neutral .f32 hφ) (h2 : S1x640.ShapeCasts S1x640x1)
    (h3 : S1x640x1.Reduces [1] S1x1) (h4 : S1x1.ShapeCasts S1x1x1) (j : S1x1x1.Idx) :
    addf (shapeCast S1x1x1 acc h0)
        (shapeCast S1x1x1 (multiReduction .add [1] S1x1 (shapeCast S1x640x1 (multiReduction .add [2] S1x640 v 0x00000000#32 h1 hφ hacc) h2)
          0x00000000#32 h3 hφ hacc) h4) j
      = acc j + tileSum v := by
  rw [shapeCast_self]
  exact congrArg (acc j + ·) (rows_then_all v h1 hφ hacc h2 h3 h4 j)

/-- Output 0: the running block plus the sum of loss·mask. -/
theorem bm_update (p g w : FVec Ideal S1x640x640 .f32) (acc : FVec Ideal S1x1x1 .f32) :
    k0_pay12 (F := Ideal) p g w acc = fun j => acc j + tileSum (fun i => bce (p i) (g i) * w i) := by
  funext j
  simp only [k0_pay12]
  refine (add_tileSum _ acc _ _ _ _ _ _ _ j).trans ?_
  refine congrArg (acc j + ·) (congrArg tileSum (funext fun i => ?_))
  show k0_pay9 (F := Ideal) p g i * k0_pay8 (F := Ideal) w i = _
  rw [loss_apply, mask_eq]

/-- Output 1: the running block plus the sum of the mask. -/
theorem m_update (w : FVec Ideal S1x640x640 .f32) (acc : FVec Ideal S1x1x1 .f32) :
    k0_pay1 (F := Ideal) (k0_pay8 (F := Ideal) w) acc = fun j => acc j + tileSum w := by
  funext j
  simp only [k0_pay1]
  refine (add_tileSum _ acc _ _ _ _ _ _ _ j).trans ?_
  rw [mask_eq]

/-- Output 2: the running block plus the sum of loss·(mask·region). -/
theorem bc_update (p g w s : FVec Ideal S1x640x640 .f32) (acc : FVec Ideal S1x1x1 .f32) :
    k0_pay2 (F := Ideal) (k0_pay11 (F := Ideal) p g w s) acc
      = fun j => acc j + tileSum (fun i => bce (p i) (g i) * (w i * s i)) := by
  funext j
  simp only [k0_pay2]
  refine (add_tileSum _ acc _ _ _ _ _ _ _ j).trans ?_
  exact congrArg (acc j + ·) (congrArg tileSum (funext fun i => lossRegion_apply p g w s i))

/-- Output 3: the running block plus the sum of mask·region. -/
theorem c_update (w s : FVec Ideal S1x640x640 .f32) (acc : FVec Ideal S1x1x1 .f32) :
    k0_pay3 (F := Ideal) (k0_pay10 (F := Ideal) w s) acc = fun j => acc j + tileSum (fun i => w i * s i) := by
  funext j
  simp only [k0_pay3]
  refine (add_tileSum _ acc _ _ _ _ _ _ _ j).trans ?_
  exact congrArg (acc j + ·) (congrArg tileSum (funext fun i => region_apply w s i))

/-! ## The reset -/

/-- The block a reset stores is zero. -/
theorem zero4 : k0_pay4 (F := Ideal) = fun _ => (0 : EReal) := by
  funext j
  show Ideal.ofBits .f32 0x00000000#32 = 0
  exact Ideal.ofBits_zero_f32
theorem zero5 : k0_pay5 (F := Ideal) = fun _ => (0 : EReal) := by
  funext j
  show Ideal.ofBits .f32 0x00000000#32 = 0
  exact Ideal.ofBits_zero_f32
theorem zero6 : k0_pay6 (F := Ideal) = fun _ => (0 : EReal) := by
  funext j
  show Ideal.ofBits .f32 0x00000000#32 = 0
  exact Ideal.ofBits_zero_f32
theorem zero7 : k0_pay7 (F := Ideal) = fun _ => (0 : EReal) := by
  funext j
  show Ideal.ofBits .f32 0x00000000#32 = 0
  exact Ideal.ofBits_zero_f32

end Cert.KernelIdeal.Payloads

end
-- ==== Proof.KBlocks.lean ====
/-
  The input windows' blocks read off their arrays, and the four output arrays after the run, over the extended
  reals.

  The grid has 32 points, point t = 16 g + b for group g < 2 and image b < 16. Each input window stages a
  [32, 640, 640] array in blocks of one image; its index map sends (g, b) to block (16 g + b, 0, 0), so point t
  reads image t: entry (0, r, k) of the block is entry (t, r, k) of the array (a block's coordinate along an axis
  is its block index times the block's extent plus the coordinate inside the block).

  Each output window stages a [2, 1, 1] array in blocks of one entry; its index map sends (g, b) to block
  (g, 0, 0), and its staging block is written back only after the last image of a group (points 15 and 31). If the
  staging block holds, after every point t, the running total after t, then the array ends holding at group g the
  total after point 16 g + 15: the point that writes entry g back is 16 g + 15, the two write-backs together cover
  the array, and each writes the total of its own group.
-/
import proofs.«158065_j53300544143793_1_alg».proof.Proof.Gen.KernelIdeal.Frame
import proofs.«158065_j53300544143793_1_alg».proof.Proof.Sums
import Idealize.ShloMosaic.Lib.Pipeline.Value
import Idealize.ShloMosaic.Lib.ValueIdx

-- the blocks' rectangles along the 640-long axes: structural recursion once per coordinate
set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.MaskedSums

variable (m : (ℓ : Loc nD τ sig) → Buf (Elt Ideal) ℓ)

/-- The grid has 32 points. -/
theorem lt32 (t : Fin cfg0.N) : t.val < 32 := lt_of_lt_of_eq t.isLt N_0

/-! ## The index maps, decided once over the 32 points

An input window's block index at point `t` is (t, 0, 0); an output window's is (t / 16, 0, 0). -/

theorem idx_in0 : ∀ t : Fin cfg0.N, win0_0.index t 0 = t.val ∧ win0_0.index t 1 = 0 ∧ win0_0.index t 2 = 0 :=
  (by decide +kernel : ∀ t : Fin grid0.N, _)

theorem idx_in1 : ∀ t : Fin cfg0.N, win0_1.index t 0 = t.val ∧ win0_1.index t 1 = 0 ∧ win0_1.index t 2 = 0 :=
  (by decide +kernel : ∀ t : Fin grid0.N, _)

theorem idx_in2 : ∀ t : Fin cfg0.N, win0_2.index t 0 = t.val ∧ win0_2.index t 1 = 0 ∧ win0_2.index t 2 = 0 :=
  (by decide +kernel : ∀ t : Fin grid0.N, _)

theorem idx_in3 : ∀ t : Fin cfg0.N, win0_3.index t 0 = t.val ∧ win0_3.index t 1 = 0 ∧ win0_3.index t 2 = 0 :=
  (by decide +kernel : ∀ t : Fin grid0.N, _)

theorem idx_out4 : ∀ t : Fin cfg0.N, win0_4.index t 0 = t.val / 16 ∧ win0_4.index t 1 = 0 ∧ win0_4.index t 2 = 0 :=
  (by decide +kernel : ∀ t : Fin grid0.N, _)

theorem idx_out5 : ∀ t : Fin cfg0.N, win0_5.index t 0 = t.val / 16 ∧ win0_5.index t 1 = 0 ∧ win0_5.index t 2 = 0 :=
  (by decide +kernel : ∀ t : Fin grid0.N, _)

theorem idx_out6 : ∀ t : Fin cfg0.N, win0_6.index t 0 = t.val / 16 ∧ win0_6.index t 1 = 0 ∧ win0_6.index t 2 = 0 :=
  (by decide +kernel : ∀ t : Fin grid0.N, _)

theorem idx_out7 : ∀ t : Fin cfg0.N, win0_7.index t 0 = t.val / 16 ∧ win0_7.index t 1 = 0 ∧ win0_7.index t 2 = 0 :=
  (by decide +kernel : ∀ t : Fin grid0.N, _)

/-! ## The input windows' blocks -/

/-- Window 0's block at point `t`, read off ANY contents `X` of its array: entry (0, r, k) of the block is entry
    (t, r, k) of `X`. -/
theorem blk_read0 (X : FVec Ideal S32x640x640 .f32) (t : Fin cfg0.N) (r k : Fin 640) :
    ((cfg0.win 0).blk t).view.read (Elt Ideal) X (ix3 0 r k) = X (ix3 ⟨t.val, lt32 t⟩ r k) := by
  obtain ⟨e0, e1, e2⟩ := idx_in0 t
  rw [View.read_apply]
  show X (((cfg0.win 0).blk t).view.emb (ix3 0 r k)) = _
  refine congrArg X (funext fun a => Fin.ext ?_)
  match a with
  | ⟨0, _⟩ => show win0_0.index t 0 * 1 + 1 * 0 = t.val; omega
  | ⟨1, _⟩ => show win0_0.index t 1 * 640 + 1 * r.val = r.val; omega
  | ⟨2, _⟩ => show win0_0.index t 2 * 640 + 1 * k.val = k.val; omega

/-- Window 1's block at point `t`, read off ANY contents `X` of its array: entry (0, r, k) of the block is entry
    (t, r, k) of `X`. -/
theorem blk_read1 (X : FVec Ideal S32x640x640 .f32) (t : Fin cfg0.N) (r k : Fin 640) :
    ((cfg0.win 1).blk t).view.read (Elt Ideal) X (ix3 0 r k) = X (ix3 ⟨t.val, lt32 t⟩ r k) := by
  obtain ⟨e0, e1, e2⟩ := idx_in1 t
  rw [View.read_apply]
  show X (((cfg0.win 1).blk t).view.emb (ix3 0 r k)) = _
  refine congrArg X (funext fun a => Fin.ext ?_)
  match a with
  | ⟨0, _⟩ => show win0_1.index t 0 * 1 + 1 * 0 = t.val; omega
  | ⟨1, _⟩ => show win0_1.index t 1 * 640 + 1 * r.val = r.val; omega
  | ⟨2, _⟩ => show win0_1.index t 2 * 640 + 1 * k.val = k.val; omega

/-- Window 2's block at point `t`, read off ANY contents `X` of its array: entry (0, r, k) of the block is entry
    (t, r, k) of `X`. -/
theorem blk_read2 (X : FVec Ideal S32x640x640 .f32) (t : Fin cfg0.N) (r k : Fin 640) :
    ((cfg0.win 2).blk t).view.read (Elt Ideal) X (ix3 0 r k) = X (ix3 ⟨t.val, lt32 t⟩ r k) := by
  obtain ⟨e0, e1, e2⟩ := idx_in2 t
  rw [View.read_apply]
  show X (((cfg0.win 2).blk t).view.emb (ix3 0 r k)) = _
  refine congrArg X (funext fun a => Fin.ext ?_)
  match a with
  | ⟨0, _⟩ => show win0_2.index t 0 * 1 + 1 * 0 = t.val; omega
  | ⟨1, _⟩ => show win0_2.index t 1 * 640 + 1 * r.val = r.val; omega
  | ⟨2, _⟩ => show win0_2.index t 2 * 640 + 1 * k.val = k.val; omega

/-- Window 3's block at point `t`, read off ANY contents `X` of its array: entry (0, r, k) of the block is entry
    (t, r, k) of `X`. -/
theorem blk_read3 (X : FVec Ideal S32x640x640 .f32) (t : Fin cfg0.N) (r k : Fin 640) :
    ((cfg0.win 3).blk t).view.read (Elt Ideal) X (ix3 0 r k) = X (ix3 ⟨t.val, lt32 t⟩ r k) := by
  obtain ⟨e0, e1, e2⟩ := idx_in3 t
  rw [View.read_apply]
  show X (((cfg0.win 3).blk t).view.emb (ix3 0 r k)) = _
  refine congrArg X (funext fun a => Fin.ext ?_)
  match a with
  | ⟨0, _⟩ => show win0_3.index t 0 * 1 + 1 * 0 = t.val; omega
  | ⟨1, _⟩ => show win0_3.index t 1 * 640 + 1 * r.val = r.val; omega
  | ⟨2, _⟩ => show win0_3.index t 2 * 640 + 1 * k.val = k.val; omega

/-- The four input windows' blocks at point `t`, at their literal type (window 0 stages `main_v49`, 1 `main_v50`,
    2 `main_v51`, 3 `main_v48`). -/
abbrev predBlk (c : Dev nD) (t : Fin cfg0.N) : FVec Ideal S1x640x640 .f32 := iblk m c 0 t
abbrev gtBlk   (c : Dev nD) (t : Fin cfg0.N) : FVec Ideal S1x640x640 .f32 := iblk m c 1 t
abbrev maskBlk (c : Dev nD) (t : Fin cfg0.N) : FVec Ideal S1x640x640 .f32 := iblk m c 2 t
abbrev subBlk  (c : Dev nD) (t : Fin cfg0.N) : FVec Ideal S1x640x640 .f32 := iblk m c 3 t

/-- The four arrays as the region finds them, at their literal type. -/
abbrev predArr (c : Dev nD) : FVec Ideal S32x640x640 .f32 := V m c main_v49
abbrev gtArr   (c : Dev nD) : FVec Ideal S32x640x640 .f32 := V m c main_v50
abbrev maskArr (c : Dev nD) : FVec Ideal S32x640x640 .f32 := V m c main_v51
abbrev subArr  (c : Dev nD) : FVec Ideal S32x640x640 .f32 := V m c main_v48

/-- Point `t` reads image `t` of `main_v49`: entry (0, r, k) of window 0's block is entry (t, r, k) of the array. -/
theorem predBlk_apply (c : Dev nD) (t : Fin cfg0.N) (r k : Fin 640) :
    predBlk m c t (ix3 0 r k) = predArr m c (ix3 ⟨t.val, lt32 t⟩ r k) :=
  blk_read0 (V m c main_v49) t r k

/-- Point `t` reads image `t` of `main_v50`: entry (0, r, k) of window 1's block is entry (t, r, k) of the array. -/
theorem gtBlk_apply (c : Dev nD) (t : Fin cfg0.N) (r k : Fin 640) :
    gtBlk m c t (ix3 0 r k) = gtArr m c (ix3 ⟨t.val, lt32 t⟩ r k) :=
  blk_read1 (V m c main_v50) t r k

/-- Point `t` reads image `t` of `main_v51`: entry (0, r, k) of window 2's block is entry (t, r, k) of the array. -/
theorem maskBlk_apply (c : Dev nD) (t : Fin cfg0.N) (r k : Fin 640) :
    maskBlk m c t (ix3 0 r k) = maskArr m c (ix3 ⟨t.val, lt32 t⟩ r k) :=
  blk_read2 (V m c main_v51) t r k

/-- Point `t` reads image `t` of `main_v48`: entry (0, r, k) of window 3's block is entry (t, r, k) of the array. -/
theorem subBlk_apply (c : Dev nD) (t : Fin cfg0.N) (r k : Fin 640) :
    subBlk m c t (ix3 0 r k) = subArr m c (ix3 ⟨t.val, lt32 t⟩ r k) :=
  blk_read3 (V m c main_v48) t r k

/-! ## The output arrays after the run

Given that output window w's staging block holds the running total after every point, its array ends holding at
group g the total after point 16 g + 15. A point that writes back has t % 16 = 15 and block index t / 16, so what it
writes is its block of that array; and entry g of the array lies in the block of point 16 g + 15, which writes back. -/

/-- Output window 4's array `main_v52_0` after the run, given the running total in its staging block after every point. -/
theorem final4 (c : Dev nD) (s : ℕ → EReal) (hout : ∀ t : Fin cfg0.N, (dats m 0 c).after 4 t = fun _ => running s t.val) :
    (dats m 0 c).arrAt 4 cfg0.N = fun i => running s (16 * (i 0).val + 15) := by
  refine (dats m 0 c).arrAt_eq_of_cover 4 (fun i => running s (16 * (i 0).val + 15)) ?_ ?_
  · intro t hf
    have h15 : t.val % 16 = 15 := (flush0_4 t).mp hf
    obtain ⟨e0, -, -⟩ := idx_out4 t
    show (cfg0.win 4).cut (grid0.coords t) ((dats m 0 c).after 4 t) = _
    rw [hout]
    funext y
    show running s t.val = running s (16 * (win0_4.index t 0 * 1 + 1 * (y 0).val) + 15)
    refine congrArg (running s) ?_
    have hy : (y 0).val < 1 := (y 0).isLt
    omega
  · intro i
    have hi0 : (i 0).val < 2 := (i 0).isLt
    have hi1 : (i 1).val < 1 := (i 1).isLt
    have hi2 : (i 2).val < 1 := (i 2).isLt
    have hN : cfg0.N = 32 := N_0
    obtain ⟨t, ht⟩ : ∃ t : Fin cfg0.N, t.val = 16 * (i 0).val + 15 := ⟨⟨16 * (i 0).val + 15, by omega⟩, rfl⟩
    obtain ⟨e0, e1, e2⟩ := idx_out4 t
    refine ⟨t, (flush0_4 t).mpr (by omega), ?_⟩
    show i ∈ ((View.whole main_v52_0).slice (win0_4.rect t)).set
    rw [View.set_slice_whole, Rect.mem_set_unit]
    intro a
    match a with
    | ⟨0, _⟩ => show win0_4.index t 0 * 1 ≤ (i 0).val ∧ (i 0).val < win0_4.index t 0 * 1 + 1; omega
    | ⟨1, _⟩ => show win0_4.index t 1 * 1 ≤ (i 1).val ∧ (i 1).val < win0_4.index t 1 * 1 + 1; omega
    | ⟨2, _⟩ => show win0_4.index t 2 * 1 ≤ (i 2).val ∧ (i 2).val < win0_4.index t 2 * 1 + 1; omega

/-- Output window 5's array `main_v52_1` after the run, given the running total in its staging block after every point. -/
theorem final5 (c : Dev nD) (s : ℕ → EReal) (hout : ∀ t : Fin cfg0.N, (dats m 0 c).after 5 t = fun _ => running s t.val) :
    (dats m 0 c).arrAt 5 cfg0.N = fun i => running s (16 * (i 0).val + 15) := by
  refine (dats m 0 c).arrAt_eq_of_cover 5 (fun i => running s (16 * (i 0).val + 15)) ?_ ?_
  · intro t hf
    have h15 : t.val % 16 = 15 := (flush0_5 t).mp hf
    obtain ⟨e0, -, -⟩ := idx_out5 t
    show (cfg0.win 5).cut (grid0.coords t) ((dats m 0 c).after 5 t) = _
    rw [hout]
    funext y
    show running s t.val = running s (16 * (win0_5.index t 0 * 1 + 1 * (y 0).val) + 15)
    refine congrArg (running s) ?_
    have hy : (y 0).val < 1 := (y 0).isLt
    omega
  · intro i
    have hi0 : (i 0).val < 2 := (i 0).isLt
    have hi1 : (i 1).val < 1 := (i 1).isLt
    have hi2 : (i 2).val < 1 := (i 2).isLt
    have hN : cfg0.N = 32 := N_0
    obtain ⟨t, ht⟩ : ∃ t : Fin cfg0.N, t.val = 16 * (i 0).val + 15 := ⟨⟨16 * (i 0).val + 15, by omega⟩, rfl⟩
    obtain ⟨e0, e1, e2⟩ := idx_out5 t
    refine ⟨t, (flush0_5 t).mpr (by omega), ?_⟩
    show i ∈ ((View.whole main_v52_1).slice (win0_5.rect t)).set
    rw [View.set_slice_whole, Rect.mem_set_unit]
    intro a
    match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 1 ≤ (i 2).val ∧ (i 2).val < win0_5.index t 2 * 1 + 1; omega

/-- Output window 6's array `main_v52_2` after the run, given the running total in its staging block after every point. -/
theorem final6 (c : Dev nD) (s : ℕ → EReal) (hout : ∀ t : Fin cfg0.N, (dats m 0 c).after 6 t = fun _ => running s t.val) :
    (dats m 0 c).arrAt 6 cfg0.N = fun i => running s (16 * (i 0).val + 15) := by
  refine (dats m 0 c).arrAt_eq_of_cover 6 (fun i => running s (16 * (i 0).val + 15)) ?_ ?_
  · intro t hf
    have h15 : t.val % 16 = 15 := (flush0_6 t).mp hf
    obtain ⟨e0, -, -⟩ := idx_out6 t
    show (cfg0.win 6).cut (grid0.coords t) ((dats m 0 c).after 6 t) = _
    rw [hout]
    funext y
    show running s t.val = running s (16 * (win0_6.index t 0 * 1 + 1 * (y 0).val) + 15)
    refine congrArg (running s) ?_
    have hy : (y 0).val < 1 := (y 0).isLt
    omega
  · intro i
    have hi0 : (i 0).val < 2 := (i 0).isLt
    have hi1 : (i 1).val < 1 := (i 1).isLt
    have hi2 : (i 2).val < 1 := (i 2).isLt
    have hN : cfg0.N = 32 := N_0
    obtain ⟨t, ht⟩ : ∃ t : Fin cfg0.N, t.val = 16 * (i 0).val + 15 := ⟨⟨16 * (i 0).val + 15, by omega⟩, rfl⟩
    obtain ⟨e0, e1, e2⟩ := idx_out6 t
    refine ⟨t, (flush0_6 t).mpr (by omega), ?_⟩
    show i ∈ ((View.whole main_v52_2).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 1 ≤ (i 1).val ∧ (i 1).val < win0_6.index t 1 * 1 + 1; omega
    | ⟨2, _⟩ => show win0_6.index t 2 * 1 ≤ (i 2).val ∧ (i 2).val < win0_6.index t 2 * 1 + 1; omega

/-- Output window 7's array `main_v52_3` after the run, given the running total in its staging block after every point. -/
theorem final7 (c : Dev nD) (s : ℕ → EReal) (hout : ∀ t : Fin cfg0.N, (dats m 0 c).after 7 t = fun _ => running s t.val) :
    (dats m 0 c).arrAt 7 cfg0.N = fun i => running s (16 * (i 0).val + 15) := by
  refine (dats m 0 c).arrAt_eq_of_cover 7 (fun i => running s (16 * (i 0).val + 15)) ?_ ?_
  · intro t hf
    have h15 : t.val % 16 = 15 := (flush0_7 t).mp hf
    obtain ⟨e0, -, -⟩ := idx_out7 t
    show (cfg0.win 7).cut (grid0.coords t) ((dats m 0 c).after 7 t) = _
    rw [hout]
    funext y
    show running s t.val = running s (16 * (win0_7.index t 0 * 1 + 1 * (y 0).val) + 15)
    refine congrArg (running s) ?_
    have hy : (y 0).val < 1 := (y 0).isLt
    omega
  · intro i
    have hi0 : (i 0).val < 2 := (i 0).isLt
    have hi1 : (i 1).val < 1 := (i 1).isLt
    have hi2 : (i 2).val < 1 := (i 2).isLt
    have hN : cfg0.N = 32 := N_0
    obtain ⟨t, ht⟩ : ∃ t : Fin cfg0.N, t.val = 16 * (i 0).val + 15 := ⟨⟨16 * (i 0).val + 15, by omega⟩, rfl⟩
    obtain ⟨e0, e1, e2⟩ := idx_out7 t
    refine ⟨t, (flush0_7 t).mpr (by omega), ?_⟩
    show i ∈ ((View.whole main_v52_3).slice (win0_7.rect t)).set
    rw [View.set_slice_whole, Rect.mem_set_unit]
    intro a
    match a with
    | ⟨0, _⟩ => show win0_7.index t 0 * 1 ≤ (i 0).val ∧ (i 0).val < win0_7.index t 0 * 1 + 1; omega
    | ⟨1, _⟩ => show win0_7.index t 1 * 1 ≤ (i 1).val ∧ (i 1).val < win0_7.index t 1 * 1 + 1; omega
    | ⟨2, _⟩ => show win0_7.index t 2 * 1 ≤ (i 2).val ∧ (i 2).val < win0_7.index t 2 * 1 + 1; omega

end Cert.KernelIdeal.Blocks

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.KValue.lean ====
/-
  What the kernel program computes, at the ideal instance.

  The pallas_call visits thirty-two grid points; point t handles image t of the four [32, 640, 640] arrays it is given
  (logits, targets, mask, marked region). Each of its four outputs is a [2, 1, 1] array of group totals: the block of a
  group is reset at the group's first point, every point adds the sum of one tile of its image, and the block is
  written back at the group's last point. So after point t a block holds the sum of the per-image sums from the last
  reset up to t (by induction over the points), and each output array ends holding, for each group, the total of its
  sixteen images. The host then adds the two group totals of each output and forms the loss from the four sums; the
  two group totals together are the sum over all thirty-two images.
-/
import proofs.«158065_j53300544143793_1_alg».proof.Proof.KPieces
import proofs.«158065_j53300544143793_1_alg».proof.Proof.KPayloads
import proofs.«158065_j53300544143793_1_alg».proof.Proof.KBlocks
import proofs.«158065_j53300544143793_1_alg».proof.Proof.Sums
import proofs.«158065_j53300544143793_1_alg».proof.Proof.LibPlainOps
import Idealize.ShloMosaic.Lib.Pipeline.Value
import Idealize.ShloMosaic.Lib.StableHlo.Run

set_option maxRecDepth 16384

noncomputable section

namespace Cert.KernelIdeal.LossValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pieces Cert.KernelIdeal.Payloads Cert.KernelIdeal.Blocks Cert.MaskedSums

variable (m : (ℓ : Loc nD τ sig) → Buf (Elt Ideal) ℓ) (ρ : Dev nD → PrngReg)

/-! ## The per-image sums of the four quantities -/

abbrev sBm (c : Dev nD) : ℕ → EReal := perImage (entryBm (predArr m c) (gtArr m c) (maskArr m c))
abbrev sM (c : Dev nD) : ℕ → EReal := perImage (maskArr m c)
abbrev sBc (c : Dev nD) : ℕ → EReal := perImage (entryBc (predArr m c) (gtArr m c) (maskArr m c) (subArr m c))
abbrev sC (c : Dev nD) : ℕ → EReal := perImage (entryC (maskArr m c) (subArr m c))

/-- The tile sums of point `t` are the sums of image `t`: the point's blocks are image `t` of the arrays. -/
theorem tile_bm (c : Dev nD) (t : Fin cfg0.N) :
    tileSum (fun i => bce (predBlk m c t i) (gtBlk m c t i) * maskBlk m c t i) = sBm m c t.val := by
  refine Eq.trans ?_ (perImage_of_lt _ t.val (lt32 t)).symm
  unfold tileSum imageSum entryBm
  refine Finset.sum_congr rfl fun r _ => Finset.sum_congr rfl fun k _ => ?_
  dsimp only
  rw [predBlk_apply, gtBlk_apply, maskBlk_apply]

theorem tile_m (c : Dev nD) (t : Fin cfg0.N) : tileSum (maskBlk m c t) = sM m c t.val := by
  refine Eq.trans ?_ (perImage_of_lt _ t.val (lt32 t)).symm
  unfold tileSum imageSum
  refine Finset.sum_congr rfl fun r _ => Finset.sum_congr rfl fun k _ => ?_
  rw [maskBlk_apply]

theorem tile_bc (c : Dev nD) (t : Fin cfg0.N) :
    tileSum (fun i => bce (predBlk m c t i) (gtBlk m c t i) * (maskBlk m c t i * subBlk m c t i)) = sBc m c t.val := by
  refine Eq.trans ?_ (perImage_of_lt _ t.val (lt32 t)).symm
  unfold tileSum imageSum entryBc
  refine Finset.sum_congr rfl fun r _ => Finset.sum_congr rfl fun k _ => ?_
  dsimp only
  rw [predBlk_apply, gtBlk_apply, maskBlk_apply, subBlk_apply]

theorem tile_c (c : Dev nD) (t : Fin cfg0.N) :
    tileSum (fun i => maskBlk m c t i * subBlk m c t i) = sC m c t.val := by
  refine Eq.trans ?_ (perImage_of_lt _ t.val (lt32 t)).symm
  unfold tileSum imageSum entryC
  refine Finset.sum_congr rfl fun r _ => Finset.sum_congr rfl fun k _ => ?_
  dsimp only
  rw [maskBlk_apply, subBlk_apply]

/-! ## The running totals, point by point -/

/-- The four output blocks after point `n`: the running totals. -/
def totals (c : Dev nD) (n : ℕ) : Vec Ideal S1x1x1 .f32 × Vec Ideal S1x1x1 .f32 × Vec Ideal S1x1x1 .f32 × Vec Ideal S1x1x1 .f32 :=
  (fun _ => running (sBm m c) n, fun _ => running (sM m c) n, fun _ => running (sBc m c) n, fun _ => running (sC m c) n)

set_option maxHeartbeats 1600000 in
/-- A point that resets: each block ends at zero plus the point's tile sum. -/
theorem point_reset (c : Dev nD) (t : Fin cfg0.N) (h0 : t.val % 16 = 0) : outsAt0 m c t.val t.isLt = totals m c t.val := by
  rw [outsAt0_A m c t h0]
  unfold totals
  rw [running_reset _ _ h0, running_reset _ _ h0, running_reset _ _ h0, running_reset _ _ h0]
  simp only [Prod.mk.injEq]
  refine ⟨?_, ?_, ?_, ?_⟩
  · refine ((out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (predBlk m c t) (gtBlk m c t) (maskBlk m c t) (subBlk m c t)).trans
      (bm_update (predBlk m c t) (gtBlk m c t) (maskBlk m c t) (k0_pay4 (F := Ideal)))).trans ?_
    funext j
    rw [show k0_pay4 (F := Ideal) j = 0 from congrFun zero4 j, zero_add]
    exact tile_bm m c t
  · refine ((out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (predBlk m c t) (gtBlk m c t) (maskBlk m c t) (subBlk m c t)).trans
      (m_update (maskBlk m c t) (k0_pay5 (F := Ideal)))).trans ?_
    funext j
    rw [show k0_pay5 (F := Ideal) j = 0 from congrFun zero5 j, zero_add]
    exact tile_m m c t
  · refine ((out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (predBlk m c t) (gtBlk m c t) (maskBlk m c t) (subBlk m c t)).trans
      (bc_update (predBlk m c t) (gtBlk m c t) (maskBlk m c t) (subBlk m c t) (k0_pay6 (F := Ideal)))).trans ?_
    funext j
    rw [show k0_pay6 (F := Ideal) j = 0 from congrFun zero6 j, zero_add]
    exact tile_bc m c t
  · refine ((out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (predBlk m c t) (gtBlk m c t) (maskBlk m c t) (subBlk m c t)).trans
      (c_update (maskBlk m c t) (subBlk m c t) (k0_pay7 (F := Ideal)))).trans ?_
    funext j
    rw [show k0_pay7 (F := Ideal) j = 0 from congrFun zero7 j, zero_add]
    exact tile_c m c t

set_option maxHeartbeats 1600000 in
/-- A point that does not reset: each block ends at what the point before left plus the point's tile sum. -/
theorem point_add (c : Dev nD) (t : Fin cfg0.N) (h0 : ¬t.val % 16 = 0) (hp : t.val - 1 < cfg0.N)
    (ih : outsAt0 m c (t.val - 1) hp = totals m c (t.val - 1)) : outsAt0 m c t.val t.isLt = totals m c t.val := by
  rw [outsAt0_B m c t h0, ih]
  unfold totals
  dsimp only
  rw [running_step _ _ h0, running_step _ _ h0, running_step _ _ h0, running_step _ _ h0]
  simp only [Prod.mk.injEq]
  refine ⟨?_, ?_, ?_, ?_⟩
  · refine ((out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (predBlk m c t) (gtBlk m c t) (maskBlk m c t) (subBlk m c t) (fun _ => running (sBm m c) (t.val - 1)) (fun _ => running (sM m c) (t.val - 1)) (fun _ => running (sBc m c) (t.val - 1)) (fun _ => running (sC m c) (t.val - 1))).trans
      (bm_update (predBlk m c t) (gtBlk m c t) (maskBlk m c t) (fun _ => running (sBm m c) (t.val - 1)))).trans ?_
    funext j
    exact congrArg (running (sBm m c) (t.val - 1) + ·) (tile_bm m c t)
  · refine ((out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (predBlk m c t) (gtBlk m c t) (maskBlk m c t) (subBlk m c t) (fun _ => running (sBm m c) (t.val - 1)) (fun _ => running (sM m c) (t.val - 1)) (fun _ => running (sBc m c) (t.val - 1)) (fun _ => running (sC m c) (t.val - 1))).trans
      (m_update (maskBlk m c t) (fun _ => running (sM m c) (t.val - 1)))).trans ?_
    funext j
    exact congrArg (running (sM m c) (t.val - 1) + ·) (tile_m m c t)
  · refine ((out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (predBlk m c t) (gtBlk m c t) (maskBlk m c t) (subBlk m c t) (fun _ => running (sBm m c) (t.val - 1)) (fun _ => running (sM m c) (t.val - 1)) (fun _ => running (sBc m c) (t.val - 1)) (fun _ => running (sC m c) (t.val - 1))).trans
      (bc_update (predBlk m c t) (gtBlk m c t) (maskBlk m c t) (subBlk m c t) (fun _ => running (sBc m c) (t.val - 1)))).trans ?_
    funext j
    exact congrArg (running (sBc m c) (t.val - 1) + ·) (tile_bc m c t)
  · refine ((out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (predBlk m c t) (gtBlk m c t) (maskBlk m c t) (subBlk m c t) (fun _ => running (sBm m c) (t.val - 1)) (fun _ => running (sM m c) (t.val - 1)) (fun _ => running (sBc m c) (t.val - 1)) (fun _ => running (sC m c) (t.val - 1))).trans
      (c_update (maskBlk m c t) (subBlk m c t) (fun _ => running (sC m c) (t.val - 1)))).trans ?_
    funext j
    exact congrArg (running (sC m c) (t.val - 1) + ·) (tile_c m c t)

/-- After every point the four blocks hold the running totals: by induction over the points. -/
theorem outsAt_eq (c : Dev nD) : ∀ (n : ℕ) (h : n < cfg0.N), outsAt0 m c n h = totals m c n
  | 0, h => point_reset m c ⟨0, h⟩ (Nat.zero_mod 16)
  | n + 1, h => by
    by_cases h0 : (n + 1) % 16 = 0
    · exact point_reset m c ⟨n + 1, h⟩ h0
    · exact point_add m c ⟨n + 1, h⟩ h0 (Nat.lt_of_succ_lt h) (outsAt_eq c n (Nat.lt_of_succ_lt h))

/-! ## The four output arrays after the run -/

theorem after4 (c : Dev nD) (t : Fin cfg0.N) : (dats m 0 c).after 4 t = fun _ => running (sBm m c) t.val := by
  rw [after0_4, outsAt_eq]; rfl
theorem after5 (c : Dev nD) (t : Fin cfg0.N) : (dats m 0 c).after 5 t = fun _ => running (sM m c) t.val := by
  rw [after0_5, outsAt_eq]; rfl
theorem after6 (c : Dev nD) (t : Fin cfg0.N) : (dats m 0 c).after 6 t = fun _ => running (sBc m c) t.val := by
  rw [after0_6, outsAt_eq]; rfl
theorem after7 (c : Dev nD) (t : Fin cfg0.N) : (dats m 0 c).after 7 t = fun _ => running (sC m c) t.val := by
  rw [after0_7, outsAt_eq]; rfl

/-- The host's sum of an array of two group totals is the sum over all thirty-two images. -/
theorem group_total (f : Cert.MaskedSums.Stack3.Idx → EReal) (h : S2x1x1.ReducesTo [0, 1, 2] S_) (hu : 0 < S_.numel) :
    Host.reduceAdd (F := Ideal) (fun i : S2x1x1.Idx => running (perImage f) (16 * (i 0).val + 15)) (constant S_ .f32 0x00000000#32) h hu
      = stackTotal f := by
  funext j
  rw [hostSum_total, sum_groups]
  exact groups_eq_images f

/-! ## The host's last lines -/

set_option maxHeartbeats 1600000 in
/-- The result buffer after the lines that follow the pallas_call: the final formula over the four sums, each the
    host's sum of one output array's two group totals. -/
theorem result_eq (c : Dev nD) :
    Pipeline.afterTail₀ cfgs (dats m) 0 (V0 m) [hostOps1, hostOps1_1] c main_v63
      = lossOf (stackTotal (entryBm (predArr m c) (gtArr m c) (maskArr m c))) (stackTotal (maskArr m c))
          (stackTotal (entryBc (predArr m c) (gtArr m c) (maskArr m c) (subArr m c))) (stackTotal (entryC (maskArr m c) (subArr m c))) := by
  have e4 : Pipeline.withArrays spec0 c (V0 m c) (fun w => (dats m 0 c).arrAt w cfg0.N) (Proc.devRef .tc main_v52_0)
      = (fun i => running (sBm m c) (16 * (i 0).val + 15) : FVec Ideal S2x1x1 .f32) :=
    (Pipeline.withArrays_arr spec0 launch0.win.arr_inj c _ _ 4).trans (final4 m c (sBm m c) (after4 m c))
  have e5 : Pipeline.withArrays spec0 c (V0 m c) (fun w => (dats m 0 c).arrAt w cfg0.N) (Proc.devRef .tc main_v52_1)
      = (fun i => running (sM m c) (16 * (i 0).val + 15) : FVec Ideal S2x1x1 .f32) :=
    (Pipeline.withArrays_arr spec0 launch0.win.arr_inj c _ _ 5).trans (final5 m c (sM m c) (after5 m c))
  have e6 : Pipeline.withArrays spec0 c (V0 m c) (fun w => (dats m 0 c).arrAt w cfg0.N) (Proc.devRef .tc main_v52_2)
      = (fun i => running (sBc m c) (16 * (i 0).val + 15) : FVec Ideal S2x1x1 .f32) :=
    (Pipeline.withArrays_arr spec0 launch0.win.arr_inj c _ _ 6).trans (final6 m c (sBc m c) (after6 m c))
  have e7 : Pipeline.withArrays spec0 c (V0 m c) (fun w => (dats m 0 c).arrAt w cfg0.N) (Proc.devRef .tc main_v52_3)
      = (fun i => running (sC m c) (16 * (i 0).val + 15) : FVec Ideal S2x1x1 .f32) :=
    (Pipeline.withArrays_arr spec0 launch0.win.arr_inj c _ _ 7).trans (final7 m c (sC m c) (after7 m c))
  unfold Pipeline.afterTail₀
  simp only [hostOps1, hostOps1_1, List.flatten_cons, List.flatten_nil, List.append_nil, List.cons_append, List.nil_append,
    Cert.PlainOps.tternary_eq]
  after_results_simp
  rw [e4, e5, e6, e7]
  rw [group_total (entryBm (predArr m c) (gtArr m c) (maskArr m c)), group_total (maskArr m c),
    group_total (entryBc (predArr m c) (gtArr m c) (maskArr m c) (subArr m c)), group_total (entryC (maskArr m c) (subArr m c))]
  rfl

/-! ## The run, read -/

/-- Every weakly fair execution of the kernel program ends with the result buffer at the final formula over the four
    sums of the arrays the pallas_call was given, and the four argument arrays unchanged. -/
theorem run : θ_run defs (onTc (τ := τ) (main (F := Ideal))) ⟨m, fun _ => 0, ρ⟩ fun r => ∀ c : Dev nD,
      r.2.mem ((c.tc : Thread nD τ).loc main_v63)
        = lossOf (stackTotal (entryBm (predArr m c) (gtArr m c) (maskArr m c))) (stackTotal (maskArr m c))
            (stackTotal (entryBc (predArr m c) (gtArr m c) (maskArr m c) (subArr m c))) (stackTotal (entryC (maskArr m c) (subArr m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v63 (Pipeline.mem_restRefs_of main_v63 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LossValue

end
-- ==== Proof.RefRun.lean ====
import proofs.«158065_j53300544143793_1_alg».proof.ReferenceIdeal
import proofs.«158065_j53300544143793_1_alg».proof.Proof.Gen.ReferenceIdeal
import Idealize.ShloMosaic.Lib.StableHlo.Run
import Idealize.ShloMosaic.Lib.Pipeline.Regions

noncomputable section

namespace Cert.ReferenceIdeal.HostRun

open Idealize.ShloMosaic Idealize.ShloMosaic.StableHlo Idealize.SL.Sem Cert.ReferenceIdeal Cert.ReferenceIdeal.Gen

variable {F : FTy → Type} [FloatOps F]

/-- @main's operations up to and including %48 (the scatter that lays the 192-row mask into the zero array), the
    bodies of @clip, @round, @_pad (with its four @_flip calls) inlined at their call sites over the call records'
    buffers, in program order. -/
abbrev opsMask : List (HloOp τ sig (Elt F)) :=
  [ StableHlo.nullary main_cst (constant S_ .f32 0x437F0000#32),
    StableHlo.unary main_cst main_v0 (broadcastInDim S32x3x640x640 ![] bcast_S_S32x3x640x640 : (⟨S_, .f32⟩ : BufTy).Contents (Elt F) → (⟨S32x3x640x640, .f32⟩ : BufTy).Contents (Elt F)),
    StableHlo.binary main_arg3 main_v0 main_v1 (mulf : (⟨S32x3x640x640, .f32⟩ : BufTy).Contents (Elt F) → (⟨S32x3x640x640, .f32⟩ : BufTy).Contents (Elt F) → (⟨S32x3x640x640, .f32⟩ : BufTy).Contents (Elt F)),
    StableHlo.unary main_v1 main_v2 (Host.floor : (⟨S32x3x640x640, .f32⟩ : BufTy).Contents (Elt F) → (⟨S32x3x640x640, .f32⟩ : BufTy).Contents (Elt F)),
    StableHlo.nullary main_cst_0 (constant S_ .f32 0x00000000#32),
    StableHlo.nullary main_cst_1 (constant S_ .f32 0x437F0000#32),
    StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S32x3x640x640, .f32⟩) (broadcastInDim S32x3x640x640 ![] bcast_S_S32x3x640x640),
    StableHlo.TRef.binary (.of main_call0_v1 : StableHlo.TRef sig ⟨S32x3x640x640, .f32⟩) (.of main_v2 : StableHlo.TRef sig ⟨S32x3x640x640, .f32⟩) (.of main_call0_v2 : StableHlo.TRef sig ⟨S32x3x640x640, .f32⟩) maximumf,
    StableHlo.TRef.unary (.of main_cst_1 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S32x3x640x640, .f32⟩) (broadcastInDim S32x3x640x640 ![] bcast_S_S32x3x640x640),
    StableHlo.TRef.binary (.of main_call0_v4 : StableHlo.TRef sig ⟨S32x3x640x640, .f32⟩) (.of main_call0_v2 : StableHlo.TRef sig ⟨S32x3x640x640, .f32⟩) (.of main_v3 : StableHlo.TRef sig ⟨S32x3x640x640, .f32⟩) minimumf,
    StableHlo.unary main_v3 main_v4 ((extractStridedSlice S32x1x640x640 ![0, 0, 0, 0] · slices_S32x3x640x640_S32x1x640x640_0_0_0_0) : (⟨S32x3x640x640, .f32⟩ : BufTy).Contents (Elt F) → (⟨S32x1x640x640, .f32⟩ : BufTy).Contents (Elt F)),
    StableHlo.reshape main_v4 main_v5 rfl shapeCasts_S32x1x640x640_S32x640x640,
    StableHlo.unary main_v3 main_v6 ((extractStridedSlice S32x1x640x640 ![0, 1, 0, 0] · slices_S32x3x640x640_S32x1x640x640_0_1_0_0) : (⟨S32x3x640x640, .f32⟩ : BufTy).Contents (Elt F) → (⟨S32x1x640x640, .f32⟩ : BufTy).Contents (Elt F)),
    StableHlo.reshape main_v6 main_v7 rfl shapeCasts_S32x1x640x640_S32x640x640,
    StableHlo.unary main_v3 main_v8 ((extractStridedSlice S32x1x640x640 ![0, 2, 0, 0] · slices_S32x3x640x640_S32x1x640x640_0_2_0_0) : (⟨S32x3x640x640, .f32⟩ : BufTy).Contents (Elt F) → (⟨S32x1x640x640, .f32⟩ : BufTy).Contents (Elt F)),
    StableHlo.reshape main_v8 main_v9 rfl shapeCasts_S32x1x640x640_S32x640x640,
    StableHlo.nullary main_cst_2 (constant S_ .f32 0x3DE978D5#32),
    StableHlo.unary main_cst_2 main_v10 (broadcastInDim S32x640x640 ![] bcast_S_S32x640x640 : (⟨S_, .f32⟩ : BufTy).Contents (Elt F) → (⟨S32x640x640, .f32⟩ : BufTy).Contents (Elt F)),
    StableHlo.binary main_v10 main_v5 main_v11 (mulf : (⟨S32x640x640, .f32⟩ : BufTy).Contents (Elt F) → (⟨S32x640x640, .f32⟩ : BufTy).Contents (Elt F) → (⟨S32x640x640, .f32⟩ : BufTy).Contents (Elt F)),
    StableHlo.nullary main_cst_3 (constant S_ .f32 0x3F1645A2#32),
    StableHlo.unary main_cst_3 main_v12 (broadcastInDim S32x640x640 ![] bcast_S_S32x640x640 : (⟨S_, .f32⟩ : BufTy).Contents (Elt F) → (⟨S32x640x640, .f32⟩ : BufTy).Contents (Elt F)),
    StableHlo.binary main_v12 main_v7 main_v13 (mulf : (⟨S32x640x640, .f32⟩ : BufTy).Contents (Elt F) → (⟨S32x640x640, .f32⟩ : BufTy).Contents (Elt F) → (⟨S32x640x640, .f32⟩ : BufTy).Contents (Elt F)),
    StableHlo.binary main_v11 main_v13 main_v14 (addf : (⟨S32x640x640, .f32⟩ : BufTy).Contents (Elt F) → (⟨S32x640x640, .f32⟩ : BufTy).Contents (Elt F) → (⟨S32x640x640, .f32⟩ : BufTy).Contents (Elt F)),
    StableHlo.nullary main_cst_4 (constant S_ .f32 0x3E991687#32),
    StableHlo.unary main_cst_4 main_v15 (broadcastInDim S32x640x640 ![] bcast_S_S32x640x640 : (⟨S_, .f32⟩ : BufTy).Contents (Elt F) → (⟨S32x640x640, .f32⟩ : BufTy).Contents (Elt F)),
    StableHlo.binary main_v15 main_v9 main_v16 (mulf : (⟨S32x640x640, .f32⟩ : BufTy).Contents (Elt F) → (⟨S32x640x640, .f32⟩ : BufTy).Contents (Elt F) → (⟨S32x640x640, .f32⟩ : BufTy).Contents (Elt F)),
    StableHlo.binary main_v14 main_v16 main_v17 (addf : (⟨S32x640x640, .f32⟩ : BufTy).Contents (Elt F) → (⟨S32x640x640, .f32⟩ : BufTy).Contents (Elt F) → (⟨S32x640x640, .f32⟩ : BufTy).Contents (Elt F)),
    StableHlo.TRef.unary (.of main_v17 : StableHlo.TRef sig ⟨S32x640x640, .f32⟩) (.of main_v18 : StableHlo.TRef sig ⟨S32x640x640, .f32⟩) Host.roundeven,
    StableHlo.unary main_v18 main_v19 ((extractStridedSlice S32x192x640 ![0, 448, 0] · slices_S32x640x640_S32x192x640_0_448_0) : (⟨S32x640x640, .f32⟩ : BufTy).Contents (Elt F) → (⟨S32x192x640, .f32⟩ : BufTy).Contents (Elt F)),
    StableHlo.nullary main_cst_5 (constant S_ .f32 0x434C0000#32),
    StableHlo.unary main_cst_5 main_v20 (broadcastInDim S32x192x640 ![] bcast_S_S32x192x640 : (⟨S_, .f32⟩ : BufTy).Contents (Elt F) → (⟨S32x192x640, .f32⟩ : BufTy).Contents (Elt F)),
    StableHlo.binary main_v19 main_v20 main_v21 (cmpf .ogt : (⟨S32x192x640, .f32⟩ : BufTy).Contents (Elt F) → (⟨S32x192x640, .f32⟩ : BufTy).Contents (Elt F) → (⟨S32x192x640, .i1⟩ : BufTy).Contents (Elt F)),
    StableHlo.nullary main_c (constantI S_ 32 0#32),
    StableHlo.TRef.unary (.of main_v19 : StableHlo.TRef sig ⟨S32x192x640, .f32⟩) (.of main_call2_v0 : StableHlo.TRef sig ⟨S32x1x640, .f32⟩) (extractStridedSlice S32x1x640 ![0, 0, 0] · slices_S32x192x640_S32x1x640_0_0_0),
    StableHlo.TRef.unary (.of main_v19 : StableHlo.TRef sig ⟨S32x192x640, .f32⟩) (.of main_call2_v1 : StableHlo.TRef sig ⟨S32x1x640, .f32⟩) (extractStridedSlice S32x1x640 ![0, 1, 0] · slices_S32x192x640_S32x1x640_0_1_0),
    StableHlo.TRef.unary (.of main_call2_v1 : StableHlo.TRef sig ⟨S32x1x640, .f32⟩) (.of main_call2_v2 : StableHlo.TRef sig ⟨S32x1x640, .f32⟩) (Host.reverse [1]),
    StableHlo.TRef.binary main_call2_call0.v0 (.of main_v19 : StableHlo.TRef sig ⟨S32x192x640, .f32⟩) (.of main_call2_v3 : StableHlo.TRef sig ⟨S32x193x640, .f32⟩) (fun a b => concatenate S32x193x640 1 [⟨S32x1x640, a⟩, ⟨S32x192x640, b⟩] concatenates_S32x1x640_S32x192x640_S32x193x640_d1),
    StableHlo.TRef.unary (.of main_call2_v3 : StableHlo.TRef sig ⟨S32x193x640, .f32⟩) (.of main_call2_v4 : StableHlo.TRef sig ⟨S32x1x640, .f32⟩) (extractStridedSlice S32x1x640 ![0, 192, 0] · slices_S32x193x640_S32x1x640_0_192_0),
    StableHlo.TRef.unary (.of main_call2_v3 : StableHlo.TRef sig ⟨S32x193x640, .f32⟩) (.of main_call2_v5 : StableHlo.TRef sig ⟨S32x1x640, .f32⟩) (extractStridedSlice S32x1x640 ![0, 191, 0] · slices_S32x193x640_S32x1x640_0_191_0),
    StableHlo.TRef.unary (.of main_call2_v5 : StableHlo.TRef sig ⟨S32x1x640, .f32⟩) (.of main_call2_v6 : StableHlo.TRef sig ⟨S32x1x640, .f32⟩) (Host.reverse [1]),
    StableHlo.TRef.binary (.of main_call2_v3 : StableHlo.TRef sig ⟨S32x193x640, .f32⟩) main_call2_call1.v0 (.of main_call2_v7 : StableHlo.TRef sig ⟨S32x194x640, .f32⟩) (fun a b => concatenate S32x194x640 1 [⟨S32x193x640, a⟩, ⟨S32x1x640, b⟩] concatenates_S32x193x640_S32x1x640_S32x194x640_d1),
    StableHlo.TRef.unary (.of main_call2_v7 : StableHlo.TRef sig ⟨S32x194x640, .f32⟩) (.of main_call2_v8 : StableHlo.TRef sig ⟨S32x194x1, .f32⟩) (extractStridedSlice S32x194x1 ![0, 0, 0] · slices_S32x194x640_S32x194x1_0_0_0),
    StableHlo.TRef.unary (.of main_call2_v7 : StableHlo.TRef sig ⟨S32x194x640, .f32⟩) (.of main_call2_v9 : StableHlo.TRef sig ⟨S32x194x1, .f32⟩) (extractStridedSlice S32x194x1 ![0, 0, 1] · slices_S32x194x640_S32x194x1_0_0_1),
    StableHlo.TRef.unary (.of main_call2_v9 : StableHlo.TRef sig ⟨S32x194x1, .f32⟩) (.of main_call2_v10 : StableHlo.TRef sig ⟨S32x194x1, .f32⟩) (Host.reverse [2]),
    StableHlo.TRef.binary main_call2_call2.v0 (.of main_call2_v7 : StableHlo.TRef sig ⟨S32x194x640, .f32⟩) (.of main_call2_v11 : StableHlo.TRef sig ⟨S32x194x641, .f32⟩) (fun a b => concatenate S32x194x641 2 [⟨S32x194x1, a⟩, ⟨S32x194x640, b⟩] concatenates_S32x194x1_S32x194x640_S32x194x641_d2),
    StableHlo.TRef.unary (.of main_call2_v11 : StableHlo.TRef sig ⟨S32x194x641, .f32⟩) (.of main_call2_v12 : StableHlo.TRef sig ⟨S32x194x1, .f32⟩) (extractStridedSlice S32x194x1 ![0, 0, 640] · slices_S32x194x641_S32x194x1_0_0_640),
    StableHlo.TRef.unary (.of main_call2_v11 : StableHlo.TRef sig ⟨S32x194x641, .f32⟩) (.of main_call2_v13 : StableHlo.TRef sig ⟨S32x194x1, .f32⟩) (extractStridedSlice S32x194x1 ![0, 0, 639] · slices_S32x194x641_S32x194x1_0_0_639),
    StableHlo.TRef.unary (.of main_call2_v13 : StableHlo.TRef sig ⟨S32x194x1, .f32⟩) (.of main_call2_v14 : StableHlo.TRef sig ⟨S32x194x1, .f32⟩) (Host.reverse [2]),
    StableHlo.TRef.binary (.of main_call2_v11 : StableHlo.TRef sig ⟨S32x194x641, .f32⟩) main_call2_call3.v0 (.of main_v22 : StableHlo.TRef sig ⟨S32x194x642, .f32⟩) (fun a b => concatenate S32x194x642 2 [⟨S32x194x641, a⟩, ⟨S32x194x1, b⟩] concatenates_S32x194x641_S32x194x1_S32x194x642_d2),
    StableHlo.unary main_v22 main_v23 ((extractStridedSlice S32x192x640 ![0, 0, 1] · slices_S32x194x642_S32x192x640_0_0_1) : (⟨S32x194x642, .f32⟩ : BufTy).Contents (Elt F) → (⟨S32x192x640, .f32⟩ : BufTy).Contents (Elt F)),
    StableHlo.unary main_v22 main_v24 ((extractStridedSlice S32x192x640 ![0, 2, 1] · slices_S32x194x642_S32x192x640_0_2_1) : (⟨S32x194x642, .f32⟩ : BufTy).Contents (Elt F) → (⟨S32x192x640, .f32⟩ : BufTy).Contents (Elt F)),
    StableHlo.binary main_v23 main_v24 main_v25 (addf : (⟨S32x192x640, .f32⟩ : BufTy).Contents (Elt F) → (⟨S32x192x640, .f32⟩ : BufTy).Contents (Elt F) → (⟨S32x192x640, .f32⟩ : BufTy).Contents (Elt F)),
    StableHlo.unary main_v22 main_v26 ((extractStridedSlice S32x192x640 ![0, 1, 0] · slices_S32x194x642_S32x192x640_0_1_0) : (⟨S32x194x642, .f32⟩ : BufTy).Contents (Elt F) → (⟨S32x192x640, .f32⟩ : BufTy).Contents (Elt F)),
    StableHlo.binary main_v25 main_v26 main_v27 (addf : (⟨S32x192x640, .f32⟩ : BufTy).Contents (Elt F) → (⟨S32x192x640, .f32⟩ : BufTy).Contents (Elt F) → (⟨S32x192x640, .f32⟩ : BufTy).Contents (Elt F)),
    StableHlo.unary main_v22 main_v28 ((extractStridedSlice S32x192x640 ![0, 1, 2] · slices_S32x194x642_S32x192x640_0_1_2) : (⟨S32x194x642, .f32⟩ : BufTy).Contents (Elt F) → (⟨S32x192x640, .f32⟩ : BufTy).Contents (Elt F)),
    StableHlo.binary main_v27 main_v28 main_v29 (addf : (⟨S32x192x640, .f32⟩ : BufTy).Contents (Elt F) → (⟨S32x192x640, .f32⟩ : BufTy).Contents (Elt F) → (⟨S32x192x640, .f32⟩ : BufTy).Contents (Elt F)),
    StableHlo.nullary main_cst_6 (constant S_ .f32 0x40800000#32),
    StableHlo.unary main_cst_6 main_v30 (broadcastInDim S32x192x640 ![] bcast_S_S32x192x640 : (⟨S_, .f32⟩ : BufTy).Contents (Elt F) → (⟨S32x192x640, .f32⟩ : BufTy).Contents (Elt F)),
    StableHlo.binary main_v30 main_v19 main_v31 (mulf : (⟨S32x192x640, .f32⟩ : BufTy).Contents (Elt F) → (⟨S32x192x640, .f32⟩ : BufTy).Contents (Elt F) → (⟨S32x192x640, .f32⟩ : BufTy).Contents (Elt F)),
    StableHlo.binary main_v29 main_v31 main_v32 (subf : (⟨S32x192x640, .f32⟩ : BufTy).Contents (Elt F) → (⟨S32x192x640, .f32⟩ : BufTy).Contents (Elt F) → (⟨S32x192x640, .f32⟩ : BufTy).Contents (Elt F)),
    StableHlo.unary main_v32 main_v33 (Host.absf : (⟨S32x192x640, .f32⟩ : BufTy).Contents (Elt F) → (⟨S32x192x640, .f32⟩ : BufTy).Contents (Elt F)),
    StableHlo.nullary main_cst_7 (constant S_ .f32 0x42990000#32),
    StableHlo.unary main_cst_7 main_v34 (broadcastInDim S32x192x640 ![] bcast_S_S32x192x640 : (⟨S_, .f32⟩ : BufTy).Contents (Elt F) → (⟨S32x192x640, .f32⟩ : BufTy).Contents (Elt F)),
    StableHlo.binary main_v33 main_v34 main_v35 (cmpf .ogt : (⟨S32x192x640, .f32⟩ : BufTy).Contents (Elt F) → (⟨S32x192x640, .f32⟩ : BufTy).Contents (Elt F) → (⟨S32x192x640, .i1⟩ : BufTy).Contents (Elt F)),
    StableHlo.binary main_v21 main_v35 main_v36 (andi : (⟨S32x192x640, .i1⟩ : BufTy).Contents (Elt F) → (⟨S32x192x640, .i1⟩ : BufTy).Contents (Elt F) → (⟨S32x192x640, .i1⟩ : BufTy).Contents (Elt F)),
    StableHlo.unary main_v36 main_v37 (uitofp .f32 : (⟨S32x192x640, .i1⟩ : BufTy).Contents (Elt F) → (⟨S32x192x640, .f32⟩ : BufTy).Contents (Elt F)),
    StableHlo.nullary main_cst_8 (constant S_ .f32 0xFF800000#32),
    StableHlo.unary main_cst_8 main_v38 (broadcastInDim S_ ![] bcast_S_S_ : (⟨S_, .f32⟩ : BufTy).Contents (Elt F) → (⟨S_, .f32⟩ : BufTy).Contents (Elt F)),
    StableHlo.binary main_v37 main_v38 main_v39 ((fun x v => Host.reduceWindow FloatOps.maximumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_9 (constant S_ .f32 0x7F800000#32),
    StableHlo.unary main_cst_9 main_v40 (broadcastInDim S_ ![] bcast_S_S_ : (⟨S_, .f32⟩ : BufTy).Contents (Elt F) → (⟨S_, .f32⟩ : BufTy).Contents (Elt F)),
    StableHlo.binary main_v39 main_v40 main_v41 ((fun x v => Host.reduceWindow FloatOps.minimumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_10 (constant S_ .f32 0x7F800000#32),
    StableHlo.unary main_cst_10 main_v42 (broadcastInDim S_ ![] bcast_S_S_ : (⟨S_, .f32⟩ : BufTy).Contents (Elt F) → (⟨S_, .f32⟩ : BufTy).Contents (Elt F)),
    StableHlo.binary main_v41 main_v42 main_v43 ((fun x v => Host.reduceWindow FloatOps.minimumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_11 (constant S_ .f32 0xFF800000#32),
    StableHlo.unary main_cst_11 main_v44 (broadcastInDim S_ ![] bcast_S_S_ : (⟨S_, .f32⟩ : BufTy).Contents (Elt F) → (⟨S_, .f32⟩ : BufTy).Contents (Elt F)),
    StableHlo.binary main_v43 main_v44 main_v45 ((fun x v => Host.reduceWindow FloatOps.maximumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_12 (constant S_ .f32 0x00000000#32),
    StableHlo.unary main_cst_12 main_v46 (broadcastInDim S32x640x640 ![] bcast_S_S32x640x640 : (⟨S_, .f32⟩ : BufTy).Contents (Elt F) → (⟨S32x640x640, .f32⟩ : BufTy).Contents (Elt F)),
    StableHlo.nullary main_c_13 (constantI S_ 32 448#32),
    StableHlo.unary main_c_13 main_v47 (broadcastInDim S1 ![] bcast_S_S1 : (⟨S_, .i32⟩ : BufTy).Contents (Elt F) → (⟨S1, .i32⟩ : BufTy).Contents (Elt F)),
    StableHlo.ternary main_v46 main_v47 main_v45 main_v48 ((fun x i u => Host.scatter scatter_S32x640x640_S1_S32x192x640_012_n_1_0 (fun _ b => b) x i u) : (⟨S32x640x640, .f32⟩ : BufTy).Contents (Elt F) → (⟨S1, .i32⟩ : BufTy).Contents (Elt F) → (⟨S32x192x640, .f32⟩ : BufTy).Contents (Elt F) → (⟨S32x640x640, .f32⟩ : BufTy).Contents (Elt F)) ]

/-- @main's remaining operations %49 … %72, the @_where select inlined last. -/
abbrev opsLoss : List (HloOp τ sig (Elt F)) :=
  [ StableHlo.unary main_v48 main_v49 (broadcastInDim S32x1x640x640 ![0, 2, 3] bcast_S32x640x640_S32x1x640x640_0_2_3 : (⟨S32x640x640, .f32⟩ : BufTy).Contents (Elt F) → (⟨S32x1x640x640, .f32⟩ : BufTy).Contents (Elt F)),
    StableHlo.nullary main_cst_14 (constant S_ .f32 0x00000000#32),
    StableHlo.unary main_cst_14 main_v50 (broadcastInDim S32x1x640x640 ![] bcast_S_S32x1x640x640 : (⟨S_, .f32⟩ : BufTy).Contents (Elt F) → (⟨S32x1x640x640, .f32⟩ : BufTy).Contents (Elt F)),
    StableHlo.binary main_arg0 main_v50 main_v51 (maximumf : (⟨S32x1x640x640, .f32⟩ : BufTy).Contents (Elt F) → (⟨S32x1x640x640, .f32⟩ : BufTy).Contents (Elt F) → (⟨S32x1x640x640, .f32⟩ : BufTy).Contents (Elt F)),
    StableHlo.binary main_arg0 main_arg1 main_v52 (mulf : (⟨S32x1x640x640, .f32⟩ : BufTy).Contents (Elt F) → (⟨S32x1x640x640, .f32⟩ : BufTy).Contents (Elt F) → (⟨S32x1x640x640, .f32⟩ : BufTy).Contents (Elt F)),
    StableHlo.binary main_v51 main_v52 main_v53 (subf : (⟨S32x1x640x640, .f32⟩ : BufTy).Contents (Elt F) → (⟨S32x1x640x640, .f32⟩ : BufTy).Contents (Elt F) → (⟨S32x1x640x640, .f32⟩ : BufTy).Contents (Elt F)),
    StableHlo.unary main_arg0 main_v54 (Host.absf : (⟨S32x1x640x640, .f32⟩ : BufTy).Contents (Elt F) → (⟨S32x1x640x640, .f32⟩ : BufTy).Contents (Elt F)),
    StableHlo.unary main_v54 main_v55 (Host.negf : (⟨S32x1x640x640, .f32⟩ : BufTy).Contents (Elt F) → (⟨S32x1x640x640, .f32⟩ : BufTy).Contents (Elt F)),
    StableHlo.unary main_v55 main_v56 (Host.exp : (⟨S32x1x640x640, .f32⟩ : BufTy).Contents (Elt F) → (⟨S32x1x640x640, .f32⟩ : BufTy).Contents (Elt F)),
    StableHlo.unary main_v56 main_v57 (Host.log1p : (⟨S32x1x640x640, .f32⟩ : BufTy).Contents (Elt F) → (⟨S32x1x640x640, .f32⟩ : BufTy).Contents (Elt F)),
    StableHlo.binary main_v53 main_v57 main_v58 (addf : (⟨S32x1x640x640, .f32⟩ : BufTy).Contents (Elt F) → (⟨S32x1x640x640, .f32⟩ : BufTy).Contents (Elt F) → (⟨S32x1x640x640, .f32⟩ : BufTy).Contents (Elt F)),
    StableHlo.binary main_v58 main_arg2 main_v59 (mulf : (⟨S32x1x640x640, .f32⟩ : BufTy).Contents (Elt F) → (⟨S32x1x640x640, .f32⟩ : BufTy).Contents (Elt F) → (⟨S32x1x640x640, .f32⟩ : BufTy).Contents (Elt F)),
    StableHlo.nullary main_cst_15 (constant S_ .f32 0x00000000#32),
    StableHlo.binary main_v59 main_cst_15 main_v60 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_arg2 main_cst_16 main_v61 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.nullary main_cst_17 (constant S_ .f32 0x358637BD#32),
    StableHlo.binary main_v61 main_cst_17 main_v62 (maximumf : (⟨S_, .f32⟩ : BufTy).Contents (Elt F) → (⟨S_, .f32⟩ : BufTy).Contents (Elt F) → (⟨S_, .f32⟩ : BufTy).Contents (Elt F)),
    StableHlo.binary main_v60 main_v62 main_v63 (Host.divf : (⟨S_, .f32⟩ : BufTy).Contents (Elt F) → (⟨S_, .f32⟩ : BufTy).Contents (Elt F) → (⟨S_, .f32⟩ : BufTy).Contents (Elt F)),
    StableHlo.binary main_arg2 main_v49 main_v64 (mulf : (⟨S32x1x640x640, .f32⟩ : BufTy).Contents (Elt F) → (⟨S32x1x640x640, .f32⟩ : BufTy).Contents (Elt F) → (⟨S32x1x640x640, .f32⟩ : BufTy).Contents (Elt F)),
    StableHlo.nullary main_cst_18 (constant S_ .f32 0x00000000#32),
    StableHlo.binary main_v64 main_cst_18 main_v65 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.binary main_v58 main_v64 main_v66 (mulf : (⟨S32x1x640x640, .f32⟩ : BufTy).Contents (Elt F) → (⟨S32x1x640x640, .f32⟩ : BufTy).Contents (Elt F) → (⟨S32x1x640x640, .f32⟩ : BufTy).Contents (Elt F)),
    StableHlo.nullary main_cst_19 (constant S_ .f32 0x00000000#32),
    StableHlo.binary main_v66 main_cst_19 main_v67 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.nullary main_cst_20 (constant S_ .f32 0x358637BD#32),
    StableHlo.binary main_v65 main_cst_20 main_v68 (maximumf : (⟨S_, .f32⟩ : BufTy).Contents (Elt F) → (⟨S_, .f32⟩ : BufTy).Contents (Elt F) → (⟨S_, .f32⟩ : BufTy).Contents (Elt F)),
    StableHlo.binary main_v67 main_v68 main_v69 (Host.divf : (⟨S_, .f32⟩ : BufTy).Contents (Elt F) → (⟨S_, .f32⟩ : BufTy).Contents (Elt F) → (⟨S_, .f32⟩ : BufTy).Contents (Elt F)),
    StableHlo.nullary main_cst_21 (constant S_ .f32 0x00000000#32),
    StableHlo.binary main_v65 main_cst_21 main_v70 (cmpf .ogt : (⟨S_, .f32⟩ : BufTy).Contents (Elt F) → (⟨S_, .f32⟩ : BufTy).Contents (Elt F) → (⟨S_, .i1⟩ : BufTy).Contents (Elt F)),
    StableHlo.nullary main_cst_22 (constant S_ .f32 0x3F800000#32),
    StableHlo.binary main_cst_22 main_v69 main_v71 (mulf : (⟨S_, .f32⟩ : BufTy).Contents (Elt F) → (⟨S_, .f32⟩ : BufTy).Contents (Elt F) → (⟨S_, .f32⟩ : BufTy).Contents (Elt F)),
    StableHlo.TRef.ternary (.of main_v70 : StableHlo.TRef sig ⟨S_, .i1⟩) (.of main_v71 : StableHlo.TRef sig ⟨S_, .f32⟩) (.of main_v63 : StableHlo.TRef sig ⟨S_, .f32⟩) (.of main_v72 : StableHlo.TRef sig ⟨S_, .f32⟩) select ]

/-! ## @main is that straight line

@main is printed as two consecutive windows. Each window is a right-nested sequence whose items are stretches of
operations and calls; a call's body is itself such a sequence, so once sequencing is reassociated a window is the
straight line of its operations. The line is cut where a call begins and where it ends (a stretch of `opsMask` or of
`opsLoss` named by its position), each cut piece is one item, and the two windows' items in order are all of
`opsMask ++ opsLoss`. -/

/-- A chain of straight lines is the straight line of their concatenation. -/
theorem chain_map_seq {Λ : Labels} : ∀ ls : List (List (HloOp τ sig (Elt F))),
    Pipeline.chain (ls.map fun l => (seq l : Prog (TpuEff nD τ sig (Elt F) Λ .tc) PUnit)) = seq ls.flatten
  | [] => rfl
  | l :: ls => by rw [List.map_cons, Pipeline.chain_cons, chain_map_seq ls, List.flatten_cons, seq_append]

/-- The first window (statements 1 … 60, through %45): @main's six operations, @clip's six, seventeen of @main,
    @round's one, five of @main, @_pad's sixteen (each @_flip's reverse in its place), twenty-nine of @main. -/
theorem main_part0_chain (c : Dev nD) : main_part0 (F := F) c = (Pipeline.chainK
  [ seq ((opsMask (F := F)).take 6),
    seq (((opsMask (F := F)).drop 6).take 6),
    seq (((opsMask (F := F)).drop 12).take 17),
    seq (((opsMask (F := F)).drop 29).take 1),
    seq (((opsMask (F := F)).drop 30).take 5),
    seq (((opsMask (F := F)).drop 35).take 16) ]
  (seq (((opsMask (F := F)).drop 51).take 29)) : Prog (TpuEff nD τ sig (Elt F) (Pipeline.Sig Λ₀ (Fin 0) fun p => (pcfgs (F := F) p).Adm) .tc) PUnit) := by
  chain_rfl

/-- The second window (statements 61 … 99): the last five operations of `opsMask` and the thirty-two of `opsLoss`
    that are @main's own, then @_where's select. -/
theorem main_part1_chain (c : Dev nD) : main_part1 (F := F) c = (Pipeline.chain
  [ seq ((opsMask (F := F)).drop 80 ++ (opsLoss (F := F)).take 32),
    seq ((opsLoss (F := F)).drop 32) ] : Prog (TpuEff nD τ sig (Elt F) (Pipeline.Sig Λ₀ (Fin 0) fun p => (pcfgs (F := F) p).Adm) .tc) PUnit) := by
  chain_rfl

/-- The pieces, in order, are the whole line. -/
theorem pieces_eq : List.flatten
    [ (opsMask (F := F)).take 6, ((opsMask (F := F)).drop 6).take 6, ((opsMask (F := F)).drop 12).take 17,
      ((opsMask (F := F)).drop 29).take 1, ((opsMask (F := F)).drop 30).take 5, ((opsMask (F := F)).drop 35).take 16,
      ((opsMask (F := F)).drop 51).take 29, (opsMask (F := F)).drop 80 ++ (opsLoss (F := F)).take 32,
      (opsLoss (F := F)).drop 32 ] = opsMask ++ opsLoss := by
  chain_rfl

/-- @main is the straight line of `opsMask` followed by `opsLoss`. -/
theorem main_eq (c : Dev nD) : main (F := F) c = seq (opsMask ++ opsLoss) := by
  show (main_part0 (F := F) c >>= fun _ => main_part1 (F := F) c) = _
  rw [main_part1_chain, main_part0_chain, Pipeline.chainK_bind_chain]
  exact (chain_map_seq _).trans (congrArg seq pieces_eq)

/-! ## The run -/

set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

theorem opsMask_sub : (opsMask : List (HloOp τ sig (Elt F))).Forall fun op => op.bufs ⊆ tcRefs τ sig :=
  ⟨nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., ternary_bufs_sub ..⟩

theorem opsLoss_sub : (opsLoss : List (HloOp τ sig (Elt F))).Forall fun op => op.bufs ⊆ tcRefs τ sig :=
  ⟨unary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., ternary_bufs_sub ..⟩

/-- Every operation determines its result: none allocates. -/
theorem opsMask_fresh : (opsMask : List (HloOp τ sig (Elt F))).Forall fun op => op.fresh = ∅ := by
  simp only [List.Forall]; repeat' constructor
theorem opsLoss_fresh : (opsLoss : List (HloOp τ sig (Elt F))).Forall fun op => op.fresh = ∅ := by
  simp only [List.Forall]; repeat' constructor

/-- The contents after two lines in turn: the fold over the concatenation is the second fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- On every device, for any float values, from any memory with zero counters: every weakly fair execution of
    @main terminates with each TensorCore buffer at the fold of `opsLoss` over the fold of `opsMask` over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsLoss (after opsMask (launchContents m d)) (Proc.devRef .tc b) :=
  (θ_run defs _ _).mono (fun _ h d b => (h d b).trans (congrFun (after_append opsMask opsLoss _) _))
    (run_seq scopedRefs_eq scopedSems_eq defs main (fun _ => opsMask ++ opsLoss) main_eq
      (fun _ => List.forall_append.mpr ⟨opsMask_sub, opsLoss_sub⟩) m ρ
      (fun _ op h => (List.mem_append.mp h).elim (List.forall_iff_forall_mem.mp opsMask_fresh op)
        (List.forall_iff_forall_mem.mp opsLoss_fresh op)))

/-! ## What the lines leave alone

Each operation writes its one result buffer, and no result buffer is an argument array; nor is %48's buffer the
result of an operation of `opsLoss`. -/

/-- The four argument arrays are written by no operation of `opsMask`. -/
theorem mask_keeps (V : Valuation τ sig (Elt F)) (b : Ref sig .tc)
    (hb : b = main_arg0 ∨ b = main_arg1 ∨ b = main_arg2 ∨ b = main_arg3) :
    after opsMask V (Proc.devRef .tc b) = V (Proc.devRef .tc b) := by
  rcases hb with rfl | rfl | rfl | rfl <;>
  exact after_of_forall_not_mem (b := Proc.devRef .tc _) _ _ (List.forall_iff_forall_mem.mp (by
    simp only [opsMask, List.Forall, nullary_writes, unary_writes, binary_writes, ternary_writes, reshape_writes,
      Finset.mem_singleton]
    repeat' apply And.intro
    all_goals exact devRef_ne_of_ne (by decide)))

/-- The four argument arrays and %48 are written by no operation of `opsLoss`. -/
theorem loss_keeps (V : Valuation τ sig (Elt F)) (b : Ref sig .tc)
    (hb : b = main_arg0 ∨ b = main_arg1 ∨ b = main_arg2 ∨ b = main_arg3 ∨ b = main_v48) :
    after opsLoss V (Proc.devRef .tc b) = V (Proc.devRef .tc b) := by
  rcases hb with rfl | rfl | rfl | rfl | rfl <;>
  exact after_of_forall_not_mem (b := Proc.devRef .tc _) _ _ (List.forall_iff_forall_mem.mp (by
    simp only [opsLoss, List.Forall, nullary_writes, unary_writes, binary_writes, ternary_writes, reshape_writes,
      Finset.mem_singleton]
    repeat' apply And.intro
    all_goals exact devRef_ne_of_ne (by decide)))

end Cert.ReferenceIdeal.HostRun

end
-- ==== Proof.RefValue.lean ====
import proofs.«158065_j53300544143793_1_alg».proof.Proof.RefRun
import proofs.«158065_j53300544143793_1_alg».proof.Proof.Sums
import proofs.«158065_j53300544143793_1_alg».proof.Proof.LibPlainOps
import Idealize.ShloMosaic.Lib.StableHlo.Run
import Idealize.ShloMosaic.Lib.ValueIdx
import Idealize.ShloMosaic.PureOps.Ideal.Laws

noncomputable section

namespace Cert.ReferenceIdeal.LossValue

open Idealize.ShloMosaic Idealize.ShloMosaic.StableHlo Idealize.ShloMosaic.ValueIdx Idealize.SL.Sem
open Cert.ReferenceIdeal Cert.ReferenceIdeal.Gen Cert.ReferenceIdeal.HostRun Cert.MaskedSums

/-- The marked-region stack %48 as the first stretch of @main leaves it. -/
abbrev regionOf (m : (ℓ : Loc nD τ sig) → Buf (Elt Ideal) ℓ) (d : Dev nD) : FVec Ideal S32x640x640 .f32 :=
  after opsMask (launchContents m d) (Proc.devRef .tc main_v48)

/-! ## The four sums

`opsLoss` forms four [32, 1, 640, 640] arrays entry by entry from the logits `A0`, the targets `A1`, the mask `A2`
and the marked region `S` laid back along the unit axis, and sums each over every axis. An entry of such an array
depends only on its index's image, row and lane, so each sum is the sum over the images of an image's sum. -/

section Sums

variable (A0 A1 A2 : FVec Ideal S32x1x640x640 .f32) (S : FVec Ideal S32x640x640 .f32)

/-- The entrywise loss as `opsLoss` forms it: max(p, 0) − p·g + log(1 + e^(−|p|)). -/
abbrev lossArr : FVec Ideal S32x1x640x640 .f32 :=
  addf (subf (maximumf A0 (broadcastInDim S32x1x640x640 ![] bcast_S_S32x1x640x640 (constant S_ .f32 0x00000000#32))) (mulf A0 A1))
    (Host.log1p (Host.exp (Host.negf (Host.absf A0))))

/-- The marked region laid back along the unit axis. -/
abbrev regionArr : FVec Ideal S32x1x640x640 .f32 :=
  broadcastInDim S32x1x640x640 ![0, 2, 3] bcast_S32x640x640_S32x1x640x640_0_2_3 S

/-- At an entry the array is the cross-entropy of that entry's logit against its target: the zero word is the
    number zero, and the absolute value is the larger of the number and its negative. -/
theorem lossArr_at (i : S32x1x640x640.Idx) : lossArr A0 A1 i = bce (A0 i) (A1 i) := by
  show (max (A0 i) (Ideal.ofBits .f32 0x00000000#32) - A0 i * A1 i) + Ideal.log1p (Ideal.exp (-(max (A0 i) (-(A0 i))))) = _
  rw [Ideal.ofBits_zero_f32]
  rfl

theorem regionArr_at (i : S32x1x640x640.Idx) : regionArr S i = S (ix3 (i 0) (i 2) (i 3)) :=
  unsqueeze_at S _ rfl _ i

/-- The sum of a whole array whose entry at an index is `f` at the index's image, row and lane. -/
theorem total_of_at (X : FVec Ideal S32x1x640x640 .f32) (f : Stack3.Idx → EReal)
    (hX : ∀ i : S32x1x640x640.Idx, X i = f (ix3 (i 0) (i 2) (i 3))) :
    Host.reduceAdd X (constant S_ .f32 0x00000000#32) reducesTo_S32x1x640x640_S_d0_1_2_3 h_S_ = stackTotal f := by
  funext j
  refine (hostSum_total X _ _ j).trans ?_
  show ∑ i : Stack4.Idx, X i = ∑ n : Fin 32, imageSum f n
  exact (Finset.sum_congr rfl fun i _ => hX i).trans (sum_stack4 f)

theorem sum_m : Host.reduceAdd A2 (constant S_ .f32 0x00000000#32) reducesTo_S32x1x640x640_S_d0_1_2_3 h_S_
    = stackTotal (squeeze A2) :=
  total_of_at A2 _ fun i => (squeeze_at A2 i).symm

theorem sum_bm : Host.reduceAdd (mulf (lossArr A0 A1) A2) (constant S_ .f32 0x00000000#32) reducesTo_S32x1x640x640_S_d0_1_2_3 h_S_
    = stackTotal (entryBm (squeeze A0) (squeeze A1) (squeeze A2)) :=
  total_of_at _ _ fun i => by
    show lossArr A0 A1 i * A2 i = bce (squeeze A0 _) (squeeze A1 _) * squeeze A2 _
    rw [squeeze_at, squeeze_at, squeeze_at, lossArr_at]

theorem sum_c : Host.reduceAdd (mulf A2 (regionArr S)) (constant S_ .f32 0x00000000#32) reducesTo_S32x1x640x640_S_d0_1_2_3 h_S_
    = stackTotal (entryC (squeeze A2) S) :=
  total_of_at _ _ fun i => by
    show A2 i * regionArr S i = squeeze A2 _ * S _
    rw [squeeze_at, regionArr_at]

theorem sum_bc : Host.reduceAdd (mulf (lossArr A0 A1) (mulf A2 (regionArr S))) (constant S_ .f32 0x00000000#32)
      reducesTo_S32x1x640x640_S_d0_1_2_3 h_S_
    = stackTotal (entryBc (squeeze A0) (squeeze A1) (squeeze A2) S) :=
  total_of_at _ _ fun i => by
    show lossArr A0 A1 i * (A2 i * regionArr S i) = bce (squeeze A0 _) (squeeze A1 _) * (squeeze A2 _ * S _)
    rw [squeeze_at, squeeze_at, squeeze_at, lossArr_at, regionArr_at]

end Sums

/-! ## The result -/

/-- The fold of `opsLoss` at the result buffer: the select over the four sums, each sum image by image. -/
theorem result_eq (V : Valuation τ sig (Elt Ideal)) :
    after opsLoss V (Proc.devRef .tc main_v72)
      = theLoss (V (Proc.devRef .tc main_arg0)) (V (Proc.devRef .tc main_arg1)) (V (Proc.devRef .tc main_arg2))
          (V (Proc.devRef .tc main_v48)) := by
  simp only [opsLoss, Cert.PlainOps.tternary_eq]
  after_results_simp
  show lossOf _ _ _ _ = _
  unfold theLoss
  rw [sum_bm, sum_m, sum_bc, sum_c]

/-- An argument array when `opsLoss` begins is as launched. -/
theorem arg_eq (m : (ℓ : Loc nD τ sig) → Buf (Elt Ideal) ℓ) (c : Dev nD) (b : Ref sig .tc)
    (hb : b = main_arg0 ∨ b = main_arg1 ∨ b = main_arg2 ∨ b = main_arg3) :
    after opsMask (launchContents m c) (Proc.devRef .tc b) = m ((c.tc : Thread nD τ).loc b) :=
  mask_keeps _ b hb

/-- On every device, from any memory with zero counters: every weakly fair execution of @main terminates with the
    result at the loss of the launched logits, targets and mask over the marked region the first stretch computes,
    and the four arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72)
        = theLoss (m ((c.tc : Thread nD τ).loc main_arg0)) (m ((c.tc : Thread nD τ).loc main_arg1))
            (m ((c.tc : Thread nD τ).loc main_arg2)) (regionOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v72).trans ((result_eq _).trans (by
          rw [arg_eq m c main_arg0 (Or.inl rfl), arg_eq m c main_arg1 (Or.inr (Or.inl rfl)),
            arg_eq m c main_arg2 (Or.inr (Or.inr (Or.inl rfl)))])),
        (h c main_arg0).trans ((loss_keeps _ _ (Or.inl rfl)).trans (arg_eq m c _ (Or.inl rfl))),
        (h c main_arg1).trans ((loss_keeps _ _ (Or.inr (Or.inl rfl))).trans (arg_eq m c _ (Or.inr (Or.inl rfl)))),
        (h c main_arg2).trans ((loss_keeps _ _ (Or.inr (Or.inr (Or.inl rfl)))).trans (arg_eq m c _ (Or.inr (Or.inr (Or.inl rfl))))),
        (h c main_arg3).trans ((loss_keeps _ _ (Or.inr (Or.inr (Or.inr (Or.inl rfl))))).trans
          (arg_eq m c _ (Or.inr (Or.inr (Or.inr rfl)))))⟩)
    (HostRun.run m ρ)

end Cert.ReferenceIdeal.LossValue

end
-- ==== Proof.LibJoin2.lean ====
/-
  Two arrays joined along an axis, as a function of the two arrays.

  A join of several arrays takes them as ONE list of (shape, array) pairs, and the evidence that the shapes fit is
  stated over that list's shapes; so a rewrite cannot replace an array inside the list without moving the evidence's
  type. For the join of exactly TWO arrays (a border row or column put beside an array, as a reflect pad does four
  times) the evidence mentions the two shapes only: naming that join as a function `join2` of the two arrays lets a
  rewriting pass reach inside either array by ordinary congruence. `join2_eq` is the equation to rewrite with,
  by definition; rewrite the operations' functions with it BEFORE their results are composed.
-/
import Idealize.ShloMosaic.PureOps.ShapeOps

namespace Cert.Join2

open Idealize.ShloMosaic

/-- Two arrays joined along axis `a`. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list is `join2` of its two arrays. -/
theorem join2_eq {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ h x y := rfl

end Cert.Join2
-- ==== Proof.Prefix.lean ====
/-
  What the two programs share before they part.

  Both programs first compute, from the image argument alone, the same [32, 640, 640] array of zeros and ones that marks a
  region of the bottom 192 rows: the same chain of host operations (scale, floor, clip, a weighted grey value rounded,
  two thresholds on it and on a reflect-padded Laplacian, two 3×3 maxima and two 3×3 minima, laid into a zero array),
  written with the same literals. Composed, the two chains are one term of the image, so from equal images they give
  equal arrays. The kernel program then passes its other three arguments to the pallas_call reshaped to rank three;
  a reshape that drops a unit axis reads the same row-major position. The reflect pad's four joins of a border to the
  array are read as joins of two arrays (Proof/LibJoin2.lean), so that each operand can be composed in turn.
-/
import proofs.«158065_j53300544143793_1_alg».proof.Proof.Gen.KernelIdeal.Frame
import proofs.«158065_j53300544143793_1_alg».proof.Proof.RefRun
import proofs.«158065_j53300544143793_1_alg».proof.Proof.Sums
import proofs.«158065_j53300544143793_1_alg».proof.Proof.LibPlainOps
import proofs.«158065_j53300544143793_1_alg».proof.Proof.LibJoin2
import Idealize.ShloMosaic.Lib.StableHlo.Run

set_option maxRecDepth 16384

noncomputable section

namespace Cert.SharedPrefix

open Idealize.ShloMosaic Idealize.ShloMosaic.StableHlo Idealize.ShloMosaic.TcCoe Idealize.SL.Sem Cert.MaskedSums Cert.Join2

/-! ## The kernel program's three reshaped arguments -/

section Reshaped

open Cert.KernelIdeal Cert.KernelIdeal.Gen

variable (m : (ℓ : Loc nD τ sig) → Buf (Elt Ideal) ℓ)

set_option maxHeartbeats 1600000 in
/-- The logits as the pallas_call finds them: the first argument with its unit axis dropped. -/
theorem pred_eq (c : Dev nD) :
    (V m c main_v49 : FVec Ideal S32x640x640 .f32) = squeeze (m ((c.tc : Thread nD τ).loc main_arg0)) := by
  have e : (V m c main_v49 : FVec Ideal S32x640x640 .f32)
      = shapeCast S32x640x640 (m ((c.tc : Thread nD τ).loc main_arg0)) shapeCasts_S32x1x640x640_S32x640x640 := by
    dsimp only [V, V0]
    simp only [hostOps0, hostOps0_1, hostOps0_2, hostOps0_3, hostOps0_4, hostOps0_5, hostOps0_6, List.flatten_cons, List.flatten_nil, List.append_nil, List.cons_append, List.nil_append,
      Cert.PlainOps.tunary_eq, Cert.PlainOps.tbinary_eq, Cert.PlainOps.tternary_eq, Cert.PlainOps.tnullary_eq, join2_eq]
    after_results_simp
    rfl
  exact e.trans (reshape_eq_squeeze _ _)

set_option maxHeartbeats 1600000 in
/-- The targets likewise. -/
theorem gt_eq (c : Dev nD) :
    (V m c main_v50 : FVec Ideal S32x640x640 .f32) = squeeze (m ((c.tc : Thread nD τ).loc main_arg1)) := by
  have e : (V m c main_v50 : FVec Ideal S32x640x640 .f32)
      = shapeCast S32x640x640 (m ((c.tc : Thread nD τ).loc main_arg1)) shapeCasts_S32x1x640x640_S32x640x640 := by
    dsimp only [V, V0]
    simp only [hostOps0, hostOps0_1, hostOps0_2, hostOps0_3, hostOps0_4, hostOps0_5, hostOps0_6, List.flatten_cons, List.flatten_nil, List.append_nil, List.cons_append, List.nil_append,
      Cert.PlainOps.tunary_eq, Cert.PlainOps.tbinary_eq, Cert.PlainOps.tternary_eq, Cert.PlainOps.tnullary_eq, join2_eq]
    after_results_simp
    rfl
  exact e.trans (reshape_eq_squeeze _ _)

set_option maxHeartbeats 1600000 in
/-- The mask likewise. -/
theorem mask_eq (c : Dev nD) :
    (V m c main_v51 : FVec Ideal S32x640x640 .f32) = squeeze (m ((c.tc : Thread nD τ).loc main_arg2)) := by
  have e : (V m c main_v51 : FVec Ideal S32x640x640 .f32)
      = shapeCast S32x640x640 (m ((c.tc : Thread nD τ).loc main_arg2)) shapeCasts_S32x1x640x640_S32x640x640 := by
    dsimp only [V, V0]
    simp only [hostOps0, hostOps0_1, hostOps0_2, hostOps0_3, hostOps0_4, hostOps0_5, hostOps0_6, List.flatten_cons, List.flatten_nil, List.append_nil, List.cons_append, List.nil_append,
      Cert.PlainOps.tunary_eq, Cert.PlainOps.tbinary_eq, Cert.PlainOps.tternary_eq, Cert.PlainOps.tnullary_eq, join2_eq]
    after_results_simp
    rfl
  exact e.trans (reshape_eq_squeeze _ _)

end Reshaped

/-! ## The marked region: one term of the image in both programs -/

attribute [local irreducible] join2 Host.reduceWindow Host.scatter Host.roundeven Host.floor Host.absf Host.reverse concatenate
  extractStridedSlice shapeCast broadcastInDim constant constantI mulf addf subf minimumf maximumf cmpf andi uitofp in
set_option maxHeartbeats 1600000 in
/-- From equal images the two programs' first stretches leave equal marked-region arrays. -/
theorem region_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (after Cert.ReferenceIdeal.HostRun.opsMask (launchContents m' c) (Proc.devRef .tc Cert.ReferenceIdeal.main_v48) : FVec Ideal Cert.ReferenceIdeal.S32x640x640 .f32)
      = (Cert.KernelIdeal.Gen.V m c Cert.KernelIdeal.main_v48 : FVec Ideal Cert.KernelIdeal.S32x640x640 .f32) := by
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.HostRun.opsMask, List.flatten_cons, List.flatten_nil, List.append_nil, List.cons_append, List.nil_append, Cert.PlainOps.tunary_eq, Cert.PlainOps.tbinary_eq, Cert.PlainOps.tternary_eq, Cert.PlainOps.tnullary_eq, join2_eq]
  after_results_simp
  have h3' : launchContents m' c (Proc.devRef .tc Cert.ReferenceIdeal.main_arg3) = m (c, Proc.devRef .tc Cert.KernelIdeal.main_arg3) := h3
  rw [h3']
  rfl

end Cert.SharedPrefix

end
-- ==== Proof.lean ====
/-
  The kernel and the reference compute the same loss.

  Both programs take logits P, targets G, a mask M (each [32, 1, 640, 640]) and an image, and both first derive from the
  image the same 0/1 array S marking a region of the bottom rows (the same host operations with the same literals:
  Proof/Prefix.lean). With the entrywise loss b = max(P, 0) − P·G + log(1 + e^(−|P|)) they need four sums over all
  32·640·640 entries: Σ b·M, Σ M, Σ b·(M·S) and Σ M·S, and return Σ b·(M·S) / max(Σ M·S, ε) where Σ M·S > 0 and
  Σ b·M / max(Σ M, ε) otherwise.

  The reference takes each sum in one host reduction of the whole array (Proof/RefValue.lean). The kernel takes them in
  a pallas_call over a 2 × 16 grid, one image per point: each point adds the sum of a 640×640 tile (lane sums of the
  rows, then their sum) to a one-entry block that is reset at the first point of a group of sixteen and written back at
  the last; the host adds the two group totals (Proof/KPieces.lean, Proof/KPayloads.lean, Proof/KBlocks.lean,
  Proof/KValue.lean). Over the extended reals addition is commutative and associative, so both arrangements give the sum
  over the images of each image's sum (Proof/Sums.lean); no entry needs to be finite for that, and the kernel's
  0 − |P| is −|P|. The two results are therefore one term of the four sums, and equal.

  The kernel programs' frames are the generated ones; the reference's frame is its run with the result dropped; the
  ideal pass rewrote nothing, so there is nothing to preserve.
-/
import proofs.«158065_j53300544143793_1_alg».proof.Defs
import proofs.«158065_j53300544143793_1_alg».proof.Proof.Gen.Kernel
import proofs.«158065_j53300544143793_1_alg».proof.Proof.Gen.Kernel.Frame
import proofs.«158065_j53300544143793_1_alg».proof.Proof.Gen.KernelIdeal
import proofs.«158065_j53300544143793_1_alg».proof.Proof.Gen.KernelIdeal.Frame
import proofs.«158065_j53300544143793_1_alg».proof.Proof.Gen.ReferenceIdeal
import proofs.«158065_j53300544143793_1_alg».proof.Proof.Gen.Pre_finite_inputs
import proofs.«158065_j53300544143793_1_alg».proof.Proof.KValue
import proofs.«158065_j53300544143793_1_alg».proof.Proof.RefValue
import proofs.«158065_j53300544143793_1_alg».proof.Proof.Prefix
import Idealize.ShloMosaic.Adequacy
import Idealize.ShloMosaic.Init

noncomputable section

namespace Cert.Proof

open Idealize.ShloMosaic Idealize.ShloMosaic.TcCoe Idealize.SL.Sem Cert.MaskedSums

theorem frame_k : Cert.frame_Kernel := fun m ρ _ => Cert.Kernel.Gen.frame m ρ

theorem frame_ki : Cert.frame_KernelIdeal := fun m ρ _ => Cert.KernelIdeal.Gen.frame m ρ

/-- The reference's run ends with its argument arrays unchanged. -/
theorem frame_ri : Cert.frame_ReferenceIdeal := fun m ρ _ =>
  (θ_run Cert.ReferenceIdeal.defs _ _).mono (fun _ h c => (h c).2) (Cert.ReferenceIdeal.LossValue.run m ρ)

theorem preserves : Cert.preserves_Kernel_KernelIdeal := trivial

/-- Both runs end at the loss of the arguments' four sums: the kernel's over the arrays the pallas_call was given, which
    are the arguments with their unit axis dropped and the marked region; the reference's over its arguments and its own
    marked region, equal to the kernel's because the images agree. -/
theorem algebraic : Cert.algebraic_KernelIdeal_ReferenceIdeal := by
  intro m ρ m' ρ' _ hagree
  refine ⟨fun c => theLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Gen.V m c Cert.KernelIdeal.main_v48), ?_, ?_⟩
  · refine (θ_run Cert.KernelIdeal.defs _ _).mono (fun _ h c => ⟨(h c).1.trans ?_, (h c).2⟩)
      (Cert.KernelIdeal.LossValue.run m ρ)
    show lossOf
        (stackTotal (entryBm (Cert.KernelIdeal.Gen.V m c Cert.KernelIdeal.main_v49 : FVec Ideal Cert.KernelIdeal.S32x640x640 .f32)
          (Cert.KernelIdeal.Gen.V m c Cert.KernelIdeal.main_v50 : FVec Ideal Cert.KernelIdeal.S32x640x640 .f32)
          (Cert.KernelIdeal.Gen.V m c Cert.KernelIdeal.main_v51 : FVec Ideal Cert.KernelIdeal.S32x640x640 .f32)))
        (stackTotal (Cert.KernelIdeal.Gen.V m c Cert.KernelIdeal.main_v51 : FVec Ideal Cert.KernelIdeal.S32x640x640 .f32))
        (stackTotal (entryBc (Cert.KernelIdeal.Gen.V m c Cert.KernelIdeal.main_v49 : FVec Ideal Cert.KernelIdeal.S32x640x640 .f32)
          (Cert.KernelIdeal.Gen.V m c Cert.KernelIdeal.main_v50 : FVec Ideal Cert.KernelIdeal.S32x640x640 .f32)
          (Cert.KernelIdeal.Gen.V m c Cert.KernelIdeal.main_v51 : FVec Ideal Cert.KernelIdeal.S32x640x640 .f32)
          (Cert.KernelIdeal.Gen.V m c Cert.KernelIdeal.main_v48 : FVec Ideal Cert.KernelIdeal.S32x640x640 .f32)))
        (stackTotal (entryC (Cert.KernelIdeal.Gen.V m c Cert.KernelIdeal.main_v51 : FVec Ideal Cert.KernelIdeal.S32x640x640 .f32)
          (Cert.KernelIdeal.Gen.V m c Cert.KernelIdeal.main_v48 : FVec Ideal Cert.KernelIdeal.S32x640x640 .f32))) = _
    rw [Cert.SharedPrefix.pred_eq m c, Cert.SharedPrefix.gt_eq m c, Cert.SharedPrefix.mask_eq m c]
    rfl
  · refine (θ_run Cert.ReferenceIdeal.defs _ _).mono (fun _ h c => ⟨(h c).1.trans ?_, (h c).2⟩)
      (Cert.ReferenceIdeal.LossValue.run m' ρ')
    rw [(hagree c).1, (hagree c).2.1, (hagree c).2.2.1]
    exact congrArg (theLoss _ _ _) (Cert.SharedPrefix.region_eq m m' c (hagree c).2.2.2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
